-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S50257 : S_.BroadcastsInDim S50257 (![] : Fin 0 → Fin S50257.rank)
  reducesTo_S50257_S_d0 : S50257.ReducesTo [0] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg3 : IVec S2x2048 32) (main_v13 : IVec S_ 1) (main_v15 : IVec S2x2048 1) (main_c_5 : IVec S_ 32) : IVec S_ 1 :=
  let main_v16 : IVec S2x2048 32 := broadcastInDim S2x2048 ![] bcast_S_S2x2048 main_c_5
  let main_v17 : IVec S2x2048 1 := cmpi .slt main_arg3 main_v16
  let main_v18 : IVec S2x2048 1 := andi main_v15 main_v17
  let main_c_6 : IVec S_ 1 := constantI S_ 1 1#1
  let main_v19 : IVec S_ 1 := (fun x v => Host.reduce IntOp.andi x v reducesTo_S2x2048_S_d0_1 h_S_) main_v18 main_c_6
  let main_v20 : IVec S_ 1 := andi main_v13 main_v19
  main_v20

def fn {F : FTy → Type} [FloatOps F] (main_arg0 : FVec F S2x2048x1024 .f32) (main_arg1 : FVec F S50257x1024 .f32) (main_arg2 : FVec F S50257 .f32) (main_arg3 : IVec S2x2048 32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S50257 .f32 := Host.absf main_arg2
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  let main_c_4 : IVec S_ 32 := constantI S_ 32 0#32
  let main_v14 : IVec S2x2048 32 := broadcastInDim S2x2048 ![] bcast_S_S2x2048 main_c_4
  let main_v15 : IVec S2x2048 1 := cmpi .sge main_arg3 main_v14
  let main_c_5 : IVec S_ 32 := constantI S_ 32 50257#32
  fn_part1 (F := F) main_arg3 main_v13 main_v15 main_c_5
-- ==== Kernel.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S4096x1024 : Shape := ⟨2, ![4096, 1024]⟩
abbrev S4096x1 : Shape := ⟨2, ![4096, 1]⟩
abbrev S_ : Shape := ⟨0, ![]⟩
abbrev S51200x1024 : Shape := ⟨2, ![51200, 1024]⟩
abbrev S1024x51200 : Shape := ⟨2, ![1024, 51200]⟩
abbrev S51200 : Shape := ⟨1, ![51200]⟩
abbrev S1x51200 : Shape := ⟨2, ![1, 51200]⟩
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S2048 : Shape := ⟨1, ![2048]⟩

abbrev nBuf : Space → Nat
  | .hbm => 21
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S50257x1024, .f32⟩
  | .hbm, ⟨2, _⟩ => ⟨S50257, .f32⟩
  | .hbm, ⟨3, _⟩ => ⟨S2x2048, .i32⟩
  | .hbm, ⟨4, _⟩ => ⟨S4096x1024, .f32⟩
  | .hbm, ⟨5, _⟩ => ⟨S4096x1024, .bf16⟩
  | .hbm, ⟨6, _⟩ => ⟨S4096x1, .i32⟩
  | .hbm, ⟨7, _⟩ => ⟨S50257x1024, .bf16⟩
  | .hbm, ⟨8, _⟩ => ⟨S_, .i32⟩
  | .hbm, ⟨9, _⟩ => ⟨S_, .bf16⟩
  | .hbm, ⟨10, _⟩ => ⟨S51200x1024, .bf16⟩
  | .hbm, ⟨11, _⟩ => ⟨S1024x51200, .bf16⟩
  | .hbm, ⟨12, _⟩ => ⟨S_, .f32⟩
  | .hbm, ⟨13, _⟩ => ⟨S_, .f32⟩
  | .hbm, ⟨14, _⟩ => ⟨S51200, .f32⟩
  | .hbm, ⟨15, _⟩ => ⟨S1x51200, .f32⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v54 : BitVec 1 := Scalar.cmpi .eq arg1 c49_i32
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x1024_S4096x1024 : S2x2048x1024.ShapeCasts S4096x1024
  bitsLt_bf16_f32 : FTy.bits .bf16 < FTy.bits .f32
  shapeCasts_S2x2048_S4096x1 : S2x2048.ShapeCasts S4096x1
  pads_S50257x1024_S51200x1024_09430_000 : S50257x1024.Pads (![0, 0] : Fin 2 → Nat) ![943, 0] ![0, 0] S51200x1024
  h_S_ : 0 < S_.numel
  transposes_S51200x1024_S1024x51200_1_0 : S51200x1024.Transposes [1, 0] S1024x51200
  pads_S50257_S51200_09430 : S50257.Pads (![0] : Fin 1 → Nat) ![943] ![0] S51200
  shapeCasts_S51200_S1x51200 : S51200.ShapeCasts S1x51200
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  iota_S2048x1024_d1_w32 : S2048x1024.Iotas .tc 32 [1]
  broadcasts_S2048x1_S2048x1024 : S2048x1.Broadcasts S2048x1024
  reduces_S2048x1024_S2048 : S2048x1024.Reduces [1] S2048
  shapeCasts_S2048_S2048x1 : S2048.ShapeCasts S2048x1
  reducesTo_S4096x1_S_d0_1 : S4096x1.ReducesTo [0, 1] S_
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x51200.size a
  hwx0_1 : ∀ i : grid0.Coords, EltTy.bits .bf16 = 32 ∨ (Rect.block (s := S1024x51200) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x51200.size a
  hwx0_2 : ∀ i : grid0.Coords, EltTy.bits .f32 = 32 ∨ (Rect.block (s := S1x51200) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v1) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S2x2048x50257 : Shape := ⟨3, ![2, 2048, 50257]⟩
abbrev S1x1x50257 : Shape := ⟨3, ![1, 1, 50257]⟩
abbrev S_ : Shape := ⟨0, ![]⟩
abbrev S2x2048x1 : Shape := ⟨3, ![2, 2048, 1]⟩
abbrev S2x2048x1x1 : Shape := ⟨4, ![2, 2048, 1, 1]⟩
abbrev S1 : Shape := ⟨1, ![1]⟩
abbrev S1x1x1x1 : Shape := ⟨4, ![1, 1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S50257x1024, .f32⟩
  | .hbm, ⟨2, _⟩ => ⟨S50257, .f32⟩
  | .hbm, ⟨3, _⟩ => ⟨S2x2048, .i32⟩
  | .hbm, ⟨4, _⟩ => ⟨S2x2048x50257, .f32⟩
  | .hbm, ⟨5, _⟩ => ⟨S1x1x50257, .f32⟩
  | .hbm, ⟨6, _⟩ => ⟨S2x2048x50257, .f32⟩
  | .hbm, ⟨7, _⟩ => ⟨S2x2048x50257, .f32⟩
  | .hbm, ⟨8, _⟩ => ⟨S_, .f32⟩
  | .hbm, ⟨9, _⟩ => ⟨S2x2048, .f32⟩
  | .hbm, ⟨10, _⟩ => ⟨S_, .f32⟩
  | .hbm, ⟨11, _⟩ => ⟨S2x2048, .f32⟩
  | .hbm, ⟨12, _⟩ => ⟨S2x2048, .f32⟩
  | .hbm, ⟨13, _⟩ => ⟨S2x2048x1, .f32⟩
  | .hbm, ⟨14, _⟩ => ⟨S2x2048x50257, .f32⟩
  | .hbm, ⟨15, _⟩ => ⟨S2x2048x50257, .f32⟩
  | .hbm, ⟨16, _⟩ => ⟨S2x2048x50257, .f32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S2x2048x1, .f32⟩
  | .hbm, ⟨21, _⟩ => ⟨S2x2048x50257, .f32⟩
  | .hbm, ⟨22, _⟩ => ⟨S2x2048x50257, .f32⟩
  | .hbm, ⟨23, _⟩ => ⟨S2x2048x1, .i32⟩
  | .hbm, ⟨24, _⟩ => ⟨S_, .i32⟩
  | .hbm, ⟨25, _⟩ => ⟨S2x2048x1, .i32⟩
  | .hbm, ⟨26, _⟩ => ⟨S2x2048x1, .i1⟩
  | .hbm, ⟨27, _⟩ => ⟨S_, .i32⟩
  | .hbm, ⟨28, _⟩ => ⟨S2x2048x1, .i32⟩
  | .hbm, ⟨29, _⟩ => ⟨S2x2048x1, .i32⟩
  | .hbm, ⟨30, _⟩ => ⟨S2x2048x1, .i32⟩
  | .hbm, ⟨31, _⟩ => ⟨S2x2048x1x1, .i32⟩
  | .hbm, ⟨32, _⟩ => ⟨S1, .i32⟩
  | .hbm, ⟨33, _⟩ => ⟨S_, .i32⟩
  | .hbm, ⟨34, _⟩ => ⟨S2x2048x1x1, .i32⟩
  | .hbm, ⟨35, _⟩ => ⟨S2x2048x1x1, .i1⟩
  | .hbm, ⟨36, _⟩ => ⟨S1x1x1x1, .i32⟩
  | .hbm, ⟨37, _⟩ => ⟨S2x2048x1x1, .i32⟩
  | .hbm, ⟨38, _⟩ => ⟨S2x2048x1x1, .i1⟩
  | .hbm, ⟨39, _⟩ => ⟨S2x2048x1x1, .i1⟩
  | .hbm, ⟨40, _⟩ => ⟨S_, .i1⟩
  | .hbm, ⟨41, _⟩ => ⟨S2x2048x1, .i1⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_cst_0 : Ref sig .tc := ⟨.hbm, 48, rfl⟩
abbrev main_v8 : Ref sig .tc := ⟨.hbm, 49, rfl⟩
abbrev main_v9 : Ref sig .tc := ⟨.hbm, 50, rfl⟩

abbrev nD : Nat := 1
abbrev τ : Topo := Topo.v7x

variable {F : FTy → Type} [FloatOps F]

class Facts₀ : Prop where
  bcast_S50257_S1x1x50257_2 : S50257.BroadcastsInDim S1x1x50257 (![2] : Fin 1 → Fin S1x1x50257.rank)
  bcast_S1x1x50257_S2x2048x50257_0_1_2 : S1x1x50257.BroadcastsInDim S2x2048x50257 (![0, 1, 2] : Fin 3 → Fin S2x2048x50257.rank)
  reducesTo_S2x2048x50257_S2x2048_d2 : S2x2048x50257.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x50257_0_1_2 : S2x2048x1.BroadcastsInDim S2x2048x50257 (![0, 1, 2] : Fin 3 → Fin S2x2048x50257.rank)
  bcast_S_S2x2048x1 : S_.BroadcastsInDim S2x2048x1 (![] : Fin 0 → Fin S2x2048x1.rank)
  shapeCasts_S2x2048x1_S2x2048x1x1 : S2x2048x1.ShapeCasts S2x2048x1x1
  bcast_S_S2x2048x1x1 : S_.BroadcastsInDim S2x2048x1x1 (![] : Fin 0 → Fin S2x2048x1x1.rank)
  bcast_S1_S1x1x1x1_3 : S1.BroadcastsInDim S1x1x1x1 (![3] : Fin 1 → Fin S1x1x1x1.rank)
  bcast_S1x1x1x1_S2x2048x1x1_0_1_2_3 : S1x1x1x1.BroadcastsInDim S2x2048x1x1 (![0, 1, 2, 3] : Fin 4 → Fin S2x2048x1x1.rank)
  reducesTo_S2x2048x1x1_S2x2048x1_d3 : S2x2048x1x1.ReducesTo [3] S2x2048x1
  reducesTo_S2x2048x1_S_d0_1_2 : S2x2048x1.ReducesTo [0, 1, 2] S_
  dot_S2x2048x1024_S50257x1024_S2x2048x50257_2_1_01_0_n_n_wf : DotDims.WF S2x2048x1024 S50257x1024 S2x2048x50257 [2] [1] [0, 1] [0] [] []
  gather_S2x2048x50257_S2x2048x1x1_S2x2048x1_n_2_01_01_2_3_111_wf : GatherDims.WF S2x2048x50257 S2x2048x1x1 S2x2048x1 [] [2] [0, 1] [2] [0, 1] 3 ![1, 1, 1]

variable [Facts₀]

def dot_S2x2048x1024_S50257x1024_S2x2048x50257_2_1_01_0_n_n : DotDims S2x2048x1024 S50257x1024 S2x2048x50257 where
  lhsContracting := [2]
  rhsContracting := [1]
  lhsNonContracting := [0, 1]
  rhsNonContracting := [0]
  lhsBatch := []
  rhsBatch := []
  wf := dot_S2x2048x1024_S50257x1024_S2x2048x50257_2_1_01_0_n_n_wf
def gather_S2x2048x50257_S2x2048x1x1_S2x2048x1_n_2_01_01_2_3_111 : GatherDims S2x2048x50257 S2x2048x1x1 S2x2048x1 where
  offsetDims := []
  collapsedSliceDims := [2]
  operandBatchingDims := [0, 1]
  startIndicesBatchingDims := [0, 1]
  startIndexMap := [2]
  indexVectorDim := 3
  sliceSizes := ![1, 1, 1]
  wf := gather_S2x2048x50257_S2x2048x1x1_S2x2048x1_n_2_01_01_2_3_111_wf

class Facts : Prop extends Facts₀ where

variable [Facts]
-- ==== Proof.KPieces.lean ====
/-
  What each control case of the tiled kernel's body leaves in the three buffers it carries from one grid point to the
  next, and in its output block, as the body's arithmetic applied to the blocks it loaded.

  At the first vocabulary tile of a batch row the body first resets the running maximum to -∞ and the running sum and
  target score to 0 and then updates them, so what it leaves is the update applied to the reset values. At every other
  tile it updates what the point before left. At the last tile it also stores, from the three updated values,
  m + log l - t into the output block.
-/
import proofs.«416658_j55568286876202_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- Every load and store of the body is through the whole buffer: the offset is zero on both axes. -/
theorem hz : (![0, 0] : Fin 2 → ℕ) = fun _ => 0 := by
  funext a; match a with | ⟨0, _⟩ => rfl | ⟨1, _⟩ => rfl

variable (c : Dev nD) (i : grid0.Coords)
  (arg2 : Memref sig .tc .vmem S2048x1024 .bf16) (harg2 : arg2.IsWhole)
  (arg3 : Memref sig .tc .vmem S1024x1024 .bf16) (harg3 : arg3.IsWhole)
  (arg4 : Memref sig .tc .vmem S1x1024 .f32) (harg4 : arg4.IsWhole)
  (arg5 : Memref sig .tc .vmem S2048x1 .i32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x1 .f32) (harg8 : arg8.IsWhole)
  (arg9 : Memref sig .tc .vmem S2048x1 .f32) (harg9 : arg9.IsWhole)
  (x0 : Vec F S2048x1024 .bf16) (x1 : Vec F S1024x1024 .bf16) (x2 : Vec F S1x1024 .f32) (x3 : Vec F S2048x1 .i32)

/-! ## The first tile of a batch row: reset, then update -/

section FirstTile
variable (hc0 : cond0_0 i) (hc1 : ¬cond0_1 i)

/-- The running maximum after the first tile: the tile's maximum against -∞. -/
theorem sout0_A_0_eq :
    sout0_A_0 c i arg2 harg2 arg3 harg3 arg4 harg4 arg5 harg5 arg6 harg6 arg7 harg7 arg8 harg8 arg9 harg9 hc0 hc1 x0 x1 x2 x3
      = k0_pay3 (k0_pay11 i x0 x1 x2 k0_pay5) := by
  unfold sout0_A_0
  rw [View.read_writes_eq_canon _ _ _
    (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz]
  simp only [View.readAt_eq_ld, harg2.read_unread, harg3.read_unread, harg4.read_unread, View.ld_unit_zero (S := S2048x1024) hz,
    View.ld_unit_zero (S := S1024x1024) hz, View.ld_unit_zero (S := S1x1024) hz, View.readCov_unit_zero (S := S2048x1) _ hz]

/-- The running sum after the first tile: the zero sum rescaled, plus the tile's exponentials. -/
theorem sout0_A_1_eq :
    sout0_A_1 c i arg2 harg2 arg3 harg3 arg4 harg4 arg5 harg5 arg6 harg6 arg7 harg7 arg8 harg8 arg9 harg9 hc0 hc1 x0 x1 x2 x3
      = k0_pay1 (k0_pay9 i x0 x1 x2) (k0_pay12 i x0 x1 x2 k0_pay5 k0_pay5) (k0_pay13 i x0 x1 x2 k0_pay5) k0_pay6 := by
  unfold sout0_A_1
  rw [View.read_writes_eq_canon _ _ _
    (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz]
  simp only [View.readAt_eq_ld, harg2.read_unread, harg3.read_unread, harg4.read_unread, View.ld_unit_zero (S := S2048x1024) hz,
    View.ld_unit_zero (S := S1024x1024) hz, View.ld_unit_zero (S := S1x1024) hz, View.readCov_unit_zero (S := S2048x1) _ hz]

/-- The running target score after the first tile: zero plus the tile's. -/
theorem sout0_A_2_eq :
    sout0_A_2 c i arg2 harg2 arg3 harg3 arg4 harg4 arg5 harg5 arg6 harg6 arg7 harg7 arg8 harg8 arg9 harg9 hc0 hc1 x0 x1 x2 x3
      = k0_pay2 (k0_pay10 i x0 x1 x2 x3) k0_pay7 := by
  unfold sout0_A_2
  rw [View.read_writes_eq_canon _ _ _
    (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz]
  simp only [View.readAt_eq_ld, harg2.read_unread, harg3.read_unread, harg4.read_unread, harg5.read_unread,
    View.ld_unit_zero (S := S2048x1024) hz, View.ld_unit_zero (S := S1024x1024) hz, View.ld_unit_zero (S := S1x1024) hz,
    View.ld_unit_zero (S := S2048x1) hz, View.readCov_unit_zero (S := S2048x1) _ hz]

end FirstTile

variable (xs0 xs1 xs2 : Vec F S2048x1 .f32)

/-! ## A middle tile: update what the point before left -/

section MiddleTile
variable (hc0 : ¬cond0_0 i) (hc1 : ¬cond0_1 i)

theorem sout0_B_0_eq :
    sout0_B_0 c i arg2 harg2 arg3 harg3 arg4 harg4 arg5 harg5 arg6 harg6 arg7 harg7 arg8 harg8 arg9 harg9 hc0 hc1 x0 x1 x2 x3 xs0 xs1 xs2
      = k0_pay3 (k0_pay11 i x0 x1 x2 xs0) := by
  unfold sout0_B_0
  rw [View.read_writes_eq_canon _ _ _
    (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg7.read_unread,
    View.ld_unit_zero (S := S2048x1024) hz, View.ld_unit_zero (S := S1024x1024) hz, View.ld_unit_zero (S := S1x1024) hz,
    View.ld_unit_zero (S := S2048x1) hz]

theorem sout0_B_1_eq :
    sout0_B_1 c i arg2 harg2 arg3 harg3 arg4 harg4 arg5 harg5 arg6 harg6 arg7 harg7 arg8 harg8 arg9 harg9 hc0 hc1 x0 x1 x2 x3 xs0 xs1 xs2
      = k0_pay1 (k0_pay9 i x0 x1 x2) (k0_pay12 i x0 x1 x2 xs0 xs0) (k0_pay13 i x0 x1 x2 xs0) xs1 := by
  unfold sout0_B_1
  rw [View.read_writes_eq_canon _ _ _
    (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg7.read_unread, harg8.read_unread,
    View.ld_unit_zero (S := S2048x1024) hz, View.ld_unit_zero (S := S1024x1024) hz, View.ld_unit_zero (S := S1x1024) hz,
    View.ld_unit_zero (S := S2048x1) hz]

theorem sout0_B_2_eq :
    sout0_B_2 c i arg2 harg2 arg3 harg3 arg4 harg4 arg5 harg5 arg6 harg6 arg7 harg7 arg8 harg8 arg9 harg9 hc0 hc1 x0 x1 x2 x3 xs0 xs1 xs2
      = k0_pay2 (k0_pay10 i x0 x1 x2 x3) xs2 := by
  unfold sout0_B_2
  rw [View.read_writes_eq_canon _ _ _
    (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg9.read_unread,
    View.ld_unit_zero (S := S2048x1024) hz, View.ld_unit_zero (S := S1024x1024) hz, View.ld_unit_zero (S := S1x1024) hz,
    View.ld_unit_zero (S := S2048x1) hz]

end MiddleTile

/-! ## The last tile: update, then the row's loss into the output block -/

section LastTile
variable (hc0 : ¬cond0_0 i) (hc1 : cond0_1 i)

theorem sout0_C_0_eq :
    sout0_C_0 c i arg2 harg2 arg3 harg3 arg4 harg4 arg5 harg5 arg6 harg6 arg7 harg7 arg8 harg8 arg9 harg9 hc0 hc1 x0 x1 x2 x3 xs0 xs1 xs2
      = k0_pay3 (k0_pay11 i x0 x1 x2 xs0) := by
  unfold sout0_C_0
  rw [View.read_writes_eq_canon _ _ _
    (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg7.read_unread,
    View.ld_unit_zero (S := S2048x1024) hz, View.ld_unit_zero (S := S1024x1024) hz, View.ld_unit_zero (S := S1x1024) hz,
    View.ld_unit_zero (S := S2048x1) hz]

theorem sout0_C_1_eq :
    sout0_C_1 c i arg2 harg2 arg3 harg3 arg4 harg4 arg5 harg5 arg6 harg6 arg7 harg7 arg8 harg8 arg9 harg9 hc0 hc1 x0 x1 x2 x3 xs0 xs1 xs2
      = k0_pay1 (k0_pay9 i x0 x1 x2) (k0_pay12 i x0 x1 x2 xs0 xs0) (k0_pay13 i x0 x1 x2 xs0) xs1 := by
  unfold sout0_C_1
  rw [View.read_writes_eq_canon _ _ _
    (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S2048x1024) hz, View.ld_unit_zero (S := S1024x1024) hz, View.ld_unit_zero (S := S1x1024) hz,
    View.ld_unit_zero (S := S2048x1) hz]

theorem sout0_C_2_eq :
    sout0_C_2 c i arg2 harg2 arg3 harg3 arg4 harg4 arg5 harg5 arg6 harg6 arg7 harg7 arg8 harg8 arg9 harg9 hc0 hc1 x0 x1 x2 x3 xs0 xs1 xs2
      = k0_pay2 (k0_pay10 i x0 x1 x2 x3) xs2 := by
  unfold sout0_C_2
  rw [View.read_writes_eq_canon _ _ _
    (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg9.read_unread,
    View.ld_unit_zero (S := S2048x1024) hz, View.ld_unit_zero (S := S1024x1024) hz, View.ld_unit_zero (S := S1x1024) hz,
    View.ld_unit_zero (S := S2048x1) hz]

/-- The output block at the last tile: the loss from the three values just stored, each read back. -/
theorem out0_C_4_eq :
    out0_C_4 c i arg2 harg2 arg3 harg3 arg4 harg4 arg5 harg5 arg6 harg6 arg7 harg7 arg8 harg8 arg9 harg9 hc0 hc1 x0 x1 x2 x3 xs0 xs1 xs2
      = k0_pay4 (k0_pay3 (k0_pay11 i x0 x1 x2 xs0))
          (k0_pay1 (k0_pay9 i x0 x1 x2) (k0_pay12 i x0 x1 x2 xs0 xs0) (k0_pay13 i x0 x1 x2 xs0) xs1)
          (k0_pay2 (k0_pay10 i x0 x1 x2 x3) xs2) := by
  unfold out0_C_4
  rw [View.read_writes_eq_canon _ _ _
    (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread,
    harg8.read_unread, harg9.read_unread, View.ld_unit_zero (S := S2048x1024) hz, View.ld_unit_zero (S := S1024x1024) hz,
    View.ld_unit_zero (S := S1x1024) hz, View.ld_unit_zero (S := S2048x1) hz, View.readCov_unit_zero (S := S2048x1) _ hz]

end LastTile

end Cert.KernelIdeal.Pieces

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.Spec.lean ====
/-
  Cross-entropy of a language-model head, two ways.

  For a token (a, p) with hidden vector x and a vocabulary of 50257 words with embeddings e and biases b, the logit of
  word c is  z c = (∑ k, x k * e c k) + b c.  The loss of the token is  logsumexp z - z label,  and the result is the
  mean over the 4096 tokens.

  One side takes the vocabulary in 50 tiles of 1024 columns (the last tile runs 943 columns past the vocabulary; those
  columns score -∞) and keeps, per token, a running maximum m, a running sum l of exp (z c - m) and a running target
  logit t: a tile with maximum m₁ replaces (m, l, t) by
      m' = max m m₁,   l' = exp (m - m') * l + ∑ j, exp (z j - m'),   t' = t + ∑ j, [label = column j] z j,
  and after the last tile the token's loss is  m + log l - t.
  The other side subtracts the maximum M over the whole vocabulary, takes  (z c - M) - log ∑ c', exp (z c' - M)  at
  c = label, sums over the tokens, divides by 4096 and negates.

  Both are  log (∑ c, exp (z c)) - z label:  the sum of exp (z c - m) rescales by exp (m - m') when the shift moves from
  m to m', so l is always ∑ exp (z c - m) over the columns seen, whatever real number m is, and
  m + log ∑ exp (z c - m) does not depend on m.  All of this is arithmetic of real numbers: it needs every input
  finite, and a label that is one of the 50257 words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- hidden states, [batch, position, feature] -/
abbrev SX : Shape := ⟨3, ![2, 2048, 1024]⟩
/-- word embeddings, [word, feature] -/
abbrev SE : Shape := ⟨2, ![50257, 1024]⟩
/-- word biases -/
abbrev SB : Shape := ⟨1, ![50257]⟩
/-- labels, [batch, position] -/
abbrev SL : Shape := ⟨2, ![2, 2048]⟩
/-- per-token losses as a column over the flattened tokens -/
abbrev SRows : Shape := ⟨2, ![4096, 1]⟩
/-- per-token values, [batch, position, 1] -/
abbrev STok : Shape := ⟨3, ![2, 2048, 1]⟩

section
variable (X : SX.Idx → EReal) (E : SE.Idx → EReal) (B : SB.Idx → EReal) (Lb : SL.Idx → BitVec 32)

/-- The logit of word `c` for token `(a, p)`. -/
def logit (a : Fin 2) (p : Fin 2048) (c : Fin 50257) : EReal :=
  (∑ k : Fin 1024, X (ix3 a p k) * E (ix2 c k)) + B (ix1 c)

/-- Column `n` of the vocabulary padded to 51200 columns: the logit of word `n`, and -∞ past the vocabulary. -/
def score (a : Fin 2) (p : Fin 2048) (n : ℕ) : EReal :=
  if h : n < 50257 then logit X E B a p ⟨n, h⟩ else ⊥

/-- The running (maximum, sum of exponentials, target logit) of one token. -/
structure Acc where
  m : EReal
  l : EReal
  t : EReal

/-- One tile of 1024 columns, with scores `S` and the label's column marked by `hit`, folded into the running triple. -/
def step (S : Fin 1024 → EReal) (hit : Fin 1024 → Bool) (s : Acc) : Acc :=
  { m := max s.m (Finset.univ.fold max ⊥ S)
    l := Ideal.exp (s.m - max s.m (Finset.univ.fold max ⊥ S)) * s.l
          + ∑ j : Fin 1024, Ideal.exp (S j - max s.m (Finset.univ.fold max ⊥ S))
    t := s.t + ∑ j : Fin 1024, if hit j then S j else 0 }

/-- The scores of tile `v`: columns `1024 v + j`. -/
def tile (a : Fin 2) (p : Fin 2048) (v : ℕ) (j : Fin 1024) : EReal := score X E B a p (1024 * v + j.val)

/-- The label's column within tile `v`, compared as 32-bit words. -/
def hits (a : Fin 2) (p : Fin 2048) (v : ℕ) (j : Fin 1024) : Bool :=
  decide (Lb (ix2 a p) = BitVec.ofNat 32 (1024 * v + j.val))

/-- The running triple of token `(a, p)` after tiles `0 … v`, from (-∞, 0, 0). -/
def accAt (a : Fin 2) (p : Fin 2048) : ℕ → Acc
  | 0 => step (tile X E B a p 0) (hits Lb a p 0) ⟨⊥, 0, 0⟩
  | v + 1 => step (tile X E B a p (v + 1)) (hits Lb a p (v + 1)) (accAt a p v)

/-- The token's loss as the tiled side computes it: after the fiftieth tile, `m + log l - t`. -/
def rowLoss (a : Fin 2) (p : Fin 2048) : EReal :=
  ((accAt X E B Lb a p 49).m + Ideal.log (accAt X E B Lb a p 49).l) - (accAt X E B Lb a p 49).t

/-- The tiled side's result: the mean of the 4096 token losses, token `r` of the flattened column being
    `(r / 2048, r % 2048)`. -/
def kernelResult : EReal :=
  Ideal.div (0 + ∑ i : SRows.Idx,
      rowLoss X E B Lb ⟨(i 0).val / 2048, by have := idx2_lt0 i; omega⟩ ⟨(i 0).val % 2048, Nat.mod_lt _ (by decide)⟩)
    ((4096 : ℝ) : EReal)

/-- The whole-vocabulary maximum of a token's logits, as the reference takes it (from -∞, and once more against -∞). -/
def refMax (a : Fin 2) (p : Fin 2048) : EReal :=
  max ⊥ (Finset.univ.fold max ⊥ (fun c : Fin 50257 => logit X E B a p c))

/-- A logit shifted by the token's maximum. -/
def shifted (a : Fin 2) (p : Fin 2048) (c : Fin 50257) : EReal := logit X E B a p c - refMax X E B a p

/-- The log-probability of word `c`. -/
def logp (a : Fin 2) (p : Fin 2048) (c : Fin 50257) : EReal :=
  shifted X E B a p c - Ideal.log (0 + ∑ c' : Fin 50257, Ideal.exp (shifted X E B a p c'))

/-- The label of token `(a, p)` as a word index (a label below 50257 is itself). -/
def labIdx (a : Fin 2) (p : Fin 2048) : Fin 50257 := ⟨(Lb (ix2 a p)).toNat % 50257, Nat.mod_lt _ (by decide)⟩

/-- The reference's result: minus the mean of the labels' log-probabilities. -/
def refResult : EReal :=
  -(Ideal.div (0 + ∑ i : STok.Idx, logp X E B (i 0) (i 1) (labIdx Lb (i 0) (i 1))) ((4096 : ℝ) : EReal))

end

end Cert.Spec

end
-- ==== Proof.KPayloads.lean ====
/-
  The body of the tiled cross-entropy kernel at one grid point, read entry by entry on the extended reals.

  At grid point (a, v) the body sees a block x of 2048 hidden rows, a block w of 1024 embedding columns, their 1024
  biases and the 2048 labels. Column j of the tile is vocabulary column 1024 v + j; its score for row p is
  (∑ k, x p k * w k j) + bias j when that column is below 50257 and -∞ otherwise. From the scores the body forms, per
  row: the label's score if the label's column is in the tile; the new running maximum; the factor exp (m - m') that
  rescales the old sum; the new sum; and, at the last tile, m + log l - t.
-/
import proofs.«416658_j55568286876202_3_alg».proof.Proof.Gen.KernelIdeal.Skeleton
import proofs.«416658_j55568286876202_3_alg».proof.Proof.LibKeepdims
import proofs.«416658_j55568286876202_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Payloads

open Cert.KernelIdeal Cert.KernelIdeal.Gen
open Idealize.ShloMosaic Idealize.ShloMosaic.ValueIdx
open Cert.LibKeepdims

/-- The tile's score of row `p` at column `j`, at grid coordinate `v` along the vocabulary: the row's product with the
    column plus the column's bias while the column is a word, -∞ past the vocabulary. -/
def tileScore (v : ℕ) (x0 : Vec Ideal S2048x1024 .bf16) (x1 : Vec Ideal S1024x1024 .bf16) (x2 : Vec Ideal S1x1024 .f32)
    (p : Fin 2048) (j : Fin 1024) : EReal :=
  if 1024 * v + j.val < 50257 then (∑ k : Fin 1024, x0 (ix2 p k) * x1 (ix2 k j)) + x2 (ix2 (0 : Fin 1) j) else ⊥

/-- Whether row `p`'s label is column `j` of the tile, as the body compares 32-bit words. -/
def tileHit (v : ℕ) (x3 : Vec Ideal S2048x1 .i32) (p : Fin 2048) (j : Fin 1024) : Bool :=
  decide (x3 (ix2 p (0 : Fin 1)) = BitVec.ofNat 32 (1024 * v + j.val))

variable (i : grid0.Coords) (x0 : Vec Ideal S2048x1024 .bf16) (x1 : Vec Ideal S1024x1024 .bf16) (x2 : Vec Ideal S1x1024 .f32)
  (x3 : Vec Ideal S2048x1 .i32)

/-! ### The tile's column numbers, the vocabulary mask and the label's hit -/

/-- Column j of the tile at grid coordinate v is vocabulary column 1024 v + j, as a 32-bit word. -/
theorem pay8_apply (p : Fin 2048) (j : Fin 1024) :
    k0_pay8 i (ix2 p j) = BitVec.ofNat 32 (1024 * (i 1).val + j.val) := by
  unfold k0_pay8
  show IntOp.addi (iota .tc S2048x1024 32 [1] _ (ix2 p j)) (Scalar.muli (BitVec.ofNat 32 (i 1).val) 1024#32) = _
  rw [iota_single_apply]
  show BitVec.ofNat 32 j.val + BitVec.ofNat 32 (i 1).val * BitVec.ofNat 32 1024 = _
  rw [← BitVec.ofNat_mul, ← BitVec.ofNat_add, Nat.add_comm, Nat.mul_comm]

/-- The grid has 50 tiles, so a column number is far below 2³¹: nothing wraps and the sign bit is clear. -/
theorem col_lt (j : Fin 1024) : 1024 * (i 1).val + j.val < 2 ^ 31 := by
  have h1 : (i 1).val < 50 := (i 1).isLt
  have h2 := j.isLt
  omega

/-- The signed comparison of the column number with 50257 is the comparison of the numbers. -/
theorem mask_apply (p : Fin 2048) (j : Fin 1024) :
    cmpi .slt (k0_pay8 i) (broadcast S2048x1024 50257#32) (ix2 p j)
      = BitVec.ofBool (decide (1024 * (i 1).val + j.val < 50257)) := by
  show IntOp.cmpi .slt (k0_pay8 i (ix2 p j)) 50257#32 = _
  rw [pay8_apply]
  unfold IntOp.cmpi
  congr 1
  show (BitVec.ofNat 32 (1024 * (i 1).val + j.val)).slt (BitVec.ofNat 32 50257) = _
  rw [BitVec.slt, StableHlo.Predicate.toInt_ofNat_small _ (col_lt i j), StableHlo.Predicate.toInt_ofNat_small 50257 (by norm_num)]
  exact decide_eq_decide.mpr (by omega)

/-! ### The tile's product read at an index -/

theorem mm_lhs_0 (y : S2048x1024.Idx) (q : dot_S2048x1024_S1024x1024_S2048x1024_1_0_0_1_n_n.contr.Idx) :
    (dot_S2048x1024_S1024x1024_S2048x1024_1_0_0_1_n_n.lhsIdx y q 0).val = (y 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl
theorem mm_lhs_1 (y : S2048x1024.Idx) (q : dot_S2048x1024_S1024x1024_S2048x1024_1_0_0_1_n_n.contr.Idx) :
    (dot_S2048x1024_S1024x1024_S2048x1024_1_0_0_1_n_n.lhsIdx y q 1).val = (q ⟨0, by decide⟩).val :=
  dot_S2048x1024_S1024x1024_S2048x1024_1_0_0_1_n_n.lhsIdx_val_of_single rfl y q
theorem mm_rhs_0 (y : S2048x1024.Idx) (q : dot_S2048x1024_S1024x1024_S2048x1024_1_0_0_1_n_n.contr.Idx) :
    (dot_S2048x1024_S1024x1024_S2048x1024_1_0_0_1_n_n.rhsIdx y q 0).val = (q ⟨0, by decide⟩).val :=
  dot_S2048x1024_S1024x1024_S2048x1024_1_0_0_1_n_n.rhsIdx_val_of_single rfl y q
theorem mm_rhs_1 (y : S2048x1024.Idx) (q : dot_S2048x1024_S1024x1024_S2048x1024_1_0_0_1_n_n.contr.Idx) :
    (dot_S2048x1024_S1024x1024_S2048x1024_1_0_0_1_n_n.rhsIdx y q 1).val = (y 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- Entry (p, j) of the tile's product into a zero accumulator is the row's product with the column. -/
theorem matmul_zero_apply (a : FVec Ideal S2048x1024 .bf16) (b : FVec Ideal S1024x1024 .bf16) (p : Fin 2048) (j : Fin 1024) :
    matmul dot_S2048x1024_S1024x1024_S2048x1024_1_0_0_1_n_n none a b (constant S2048x1024 .f32 0x00000000#32) (ix2 p j)
      = ∑ k : Fin 1024, a (ix2 p k) * b (ix2 k j) := by
  refine (Ideal.matmul_constant_zero_apply dot_S2048x1024_S1024x1024_S2048x1024_1_0_0_1_n_n none a b (ix2 p j)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p j) ((contrEquiv1 dot_S2048x1024_S1024x1024_S2048x1024_1_0_0_1_n_n 1024 rfl rfl).symm k) = ix2 p k :=
    funext fun ax => Fin.ext (by
      match ax with
      | ⟨0, _⟩ => exact mm_lhs_0 _ _
      | ⟨1, _⟩ => exact (mm_lhs_1 _ _).trans hk)
  have er : dot_S2048x1024_S1024x1024_S2048x1024_1_0_0_1_n_n.rhsIdx (ix2 p j) ((contrEquiv1 dot_S2048x1024_S1024x1024_S2048x1024_1_0_0_1_n_n 1024 rfl rfl).symm k) = ix2 k j :=
    funext fun ax => Fin.ext (by
      match ax with
      | ⟨0, _⟩ => exact (mm_rhs_0 _ _).trans hk
      | ⟨1, _⟩ => exact mm_rhs_1 _ _)
  rw [el, er]

/-- The constant the body fills the masked columns with is named -∞ on the extended reals. -/
theorem neg_big_eq : (Named.named (F := Ideal) κ "neg_big" (φ := .f32) 0xFF333332#32 : Ideal .f32) = ⊥ :=
  IdealRules.named_const.ideal_named_scalar κ "neg_big" _ ⊥ rfl

/-- The masked score of one entry, over any operands of the product and any row of biases. -/
theorem score_apply (a : FVec Ideal S2048x1024 .bf16) (b : FVec Ideal S1024x1024 .bf16) (c : FVec Ideal S1x1024 .f32)
    (hb : S1x1024.Broadcasts S2048x1024) (p : Fin 2048) (j : Fin 1024) :
    select (cmpi .slt (k0_pay8 i) (broadcast S2048x1024 50257#32))
        (addf (matmul (F := Ideal) dot_S2048x1024_S1024x1024_S2048x1024_1_0_0_1_n_n none a b (constant S2048x1024 .f32 0x00000000#32)) (broadcastTo S2048x1024 c hb))
        (broadcast S2048x1024 (Named.named (F := Ideal) κ "neg_big" (φ := .f32) 0xFF333332#32)) (ix2 p j)
      = tileScore (i 1).val a b c p j := by
  refine (select_apply _ _ _ (ix2 p j)).trans ?_
  rw [mask_apply]
  refine Eq.trans (congrArg₂ (Scalar.select _) (addf_apply _ _ (ix2 p j)) (broadcast_apply _ (ix2 p j))) ?_
  rw [matmul_zero_apply, broadcastTo_1b_ab_apply, neg_big_eq]
  unfold tileScore
  by_cases h : 1024 * (i 1).val + j.val < 50257
  · rw [if_pos h, decide_eq_true h]; exact select_one _ _
  · rw [if_neg h, decide_eq_false h]; exact select_zero _ _

/-- The masked scores. -/
theorem pay9_apply (p : Fin 2048) (j : Fin 1024) :
    k0_pay9 (F := Ideal) i x0 x1 x2 (ix2 p j) = tileScore (i 1).val x0 x1 x2 p j := by
  unfold k0_pay9
  rw [shapeCast_self, shapeCast_self, shapeCast_self]
  exact score_apply i x0 x1 x2 _ p j

/-- The comparison of the row's label with the tile's column numbers, entry by entry. -/
theorem hit_apply (hs : S2048x1.ShapeCasts S2048x1) (hb : S2048x1.Broadcasts S2048x1024) (p : Fin 2048) (k : Fin 1024) :
    cmpi .eq (broadcastTo S2048x1024 (shapeCast S2048x1 x3 hs) hb) (k0_pay8 i) (ix2 p k)
      = BitVec.ofBool (tileHit (i 1).val x3 p k) := by
  refine Eq.trans (congrArg₂ (IntOp.cmpi .eq) (broadcastTo_a1_ab_apply _ hb p k) (pay8_apply i p k)) ?_
  rw [shapeCast_self]
  unfold tileHit
  by_cases h : x3 (ix2 p (0 : Fin 1)) = BitVec.ofNat 32 (1024 * (i 1).val + k.val)
  · rw [decide_eq_true h]
    exact StableHlo.Predicate.cmpi_eq_iff.mpr h
  · rw [decide_eq_false h]
    exact eq_zero_of_ne_one (fun hh => h (StableHlo.Predicate.cmpi_eq_iff.mp hh))

/-- One column's term of the label's score: the score where the label is this column, else zero. -/
theorem hit_term (hs : S2048x1.ShapeCasts S2048x1) (hb : S2048x1.Broadcasts S2048x1024) (p : Fin 2048) (k : Fin 1024) :
    select (cmpi .eq (broadcastTo S2048x1024 (shapeCast S2048x1 x3 hs) hb) (k0_pay8 i)) (k0_pay9 (F := Ideal) i x0 x1 x2)
        (broadcast S2048x1024 (Scalar.ofBits (F := Ideal) .f32 0x00000000#32)) (ix2 p k)
      = if tileHit (i 1).val x3 p k then tileScore (i 1).val x0 x1 x2 p k else 0 := by
  refine (select_apply _ _ _ (ix2 p k)).trans ?_
  rw [hit_apply i x3 hs hb p k]
  have hz : broadcast S2048x1024 (Scalar.ofBits (F := Ideal) .f32 0x00000000#32) (ix2 p k) = (0 : EReal) :=
    Ideal.ofBits_zero_f32
  refine Eq.trans (congrArg₂ (Scalar.select _) (pay9_apply i x0 x1 x2 p k) hz) ?_
  cases tileHit (i 1).val x3 p k
  · exact select_zero _ _
  · exact select_one _ _

/-- The label's score, where the label's column is in the tile. -/
theorem pay10_apply (p : Fin 2048) :
    k0_pay10 (F := Ideal) i x0 x1 x2 x3 (ix2 p (0 : Fin 1))
      = ∑ j : Fin 1024, if tileHit (i 1).val x3 p j then tileScore (i 1).val x0 x1 x2 p j else 0 := by
  unfold k0_pay10
  refine (shapeCast_a_a1_apply _ _ p (0 : Fin 1)).trans ?_
  refine (rowSum_apply _ _ _ _ _ p).trans ?_
  exact Finset.sum_congr rfl fun k _ => hit_term i x0 x1 x2 x3 _ _ p k

/-- A float lane maximum of an `[a, b]` vector along its second axis, read at row `p` on the extended reals, is the
    fold of `max` over that row's entries from the accumulator's value. -/
theorem rowMax_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc)) (funext fun k => congrArg src (funext fun ax => Fin.ext (by
      match ax with
      | ⟨0, _⟩ => rfl
      | ⟨1, _⟩ => rfl))))

theorem ofBits_neg_inf_f32 : Ideal.ofBits .f32 0xFF800000#32 = ⊥ := by simp [Ideal.ofBits, Ideal.ieee]

/-- The new running maximum. -/
theorem pay11_apply (mprev : Vec Ideal S2048x1 .f32) (p : Fin 2048) :
    k0_pay11 (F := Ideal) i x0 x1 x2 mprev (ix2 p (0 : Fin 1))
      = max (mprev (ix2 p (0 : Fin 1))) (Finset.univ.fold max ⊥ (tileScore (i 1).val x0 x1 x2 p)) := by
  unfold k0_pay11
  refine (maximumf_apply _ _ (ix2 p (0 : Fin 1))).trans ?_
  refine congrArg (max (mprev (ix2 p (0 : Fin 1)))) ?_
  refine (shapeCast_a_a1_apply _ _ p (0 : Fin 1)).trans ?_
  refine (rowMax_apply _ _ _ _ _ p).trans ?_
  rw [ofBits_neg_inf_f32]
  exact congrArg (Finset.univ.fold max ⊥) (funext fun k => pay9_apply i x0 x1 x2 p k)

/-- The rescaling factor of the old sum. -/
theorem pay12_apply (mprev mprev' : Vec Ideal S2048x1 .f32) (p : Fin 2048) :
    k0_pay12 (F := Ideal) i x0 x1 x2 mprev mprev' (ix2 p (0 : Fin 1))
      = Ideal.exp (mprev' (ix2 p (0 : Fin 1)) - k0_pay11 (F := Ideal) i x0 x1 x2 mprev (ix2 p (0 : Fin 1))) := by
  rfl

/-- The new maximum spread over the tile's columns. -/
theorem pay13_apply (mprev : Vec Ideal S2048x1 .f32) (p : Fin 2048) (j : Fin 1024) :
    k0_pay13 (F := Ideal) i x0 x1 x2 mprev (ix2 p j) = k0_pay11 (F := Ideal) i x0 x1 x2 mprev (ix2 p (0 : Fin 1)) := by
  unfold k0_pay13
  exact broadcastTo_a1_ab_apply _ _ p j

/-- The new sum: the old one rescaled, plus the tile's exponentials. -/
theorem pay1_apply (v19 : FVec Ideal S2048x1024 .f32) (v34 : FVec Ideal S2048x1 .f32) (v35 : FVec Ideal S2048x1024 .f32)
    (v38 : Vec Ideal S2048x1 .f32) (p : Fin 2048) :
    k0_pay1 (F := Ideal) v19 v34 v35 v38 (ix2 p (0 : Fin 1))
      = v34 (ix2 p (0 : Fin 1)) * v38 (ix2 p (0 : Fin 1)) + ∑ j : Fin 1024, Ideal.exp (v19 (ix2 p j) - v35 (ix2 p j)) := by
  unfold k0_pay1
  dsimp only
  rw [shapeCast_self]
  show v34 (ix2 p (0 : Fin 1)) * v38 (ix2 p (0 : Fin 1)) + shapeCast S2048x1 _ _ (ix2 p (0 : Fin 1)) = _
  rw [shapeCast_a_a1_apply]
  exact congrArg (v34 (ix2 p (0 : Fin 1)) * v38 (ix2 p (0 : Fin 1)) + ·) (rowSum_apply _ _ _ _ _ p)

/-- The new target score. -/
theorem pay2_apply (v27 : FVec Ideal S2048x1 .f32) (v46 : Vec Ideal S2048x1 .f32) (y : S2048x1.Idx) :
    k0_pay2 (F := Ideal) v27 v46 y = v46 y + v27 y := by
  unfold k0_pay2
  rw [shapeCast_self]
  rfl

/-- The maximum is stored as it is. -/
theorem pay3_eq (v31 : FVec Ideal S2048x1 .f32) : k0_pay3 (F := Ideal) v31 = v31 := by
  unfold k0_pay3
  exact shapeCast_self _ _

/-- The row's loss at the last tile. -/
theorem pay4_apply (v57 v58 v61 : Vec Ideal S2048x1 .f32) (y : S2048x1.Idx) :
    k0_pay4 (F := Ideal) v57 v58 v61 y = (v57 y + Ideal.log (v58 y)) - v61 y := by
  rfl

/-- The running maximum starts at -∞, the sum and the target score at 0. -/
theorem pay5_apply (y : S2048x1.Idx) : k0_pay5 (F := Ideal) y = ⊥ := by
  unfold k0_pay5
  rw [shapeCast_self]
  exact ofBits_neg_inf_f32
theorem pay6_apply (y : S2048x1.Idx) : k0_pay6 (F := Ideal) y = 0 := by
  unfold k0_pay6
  rw [shapeCast_self]
  exact Ideal.ofBits_zero_f32
theorem pay7_apply (y : S2048x1.Idx) : k0_pay7 (F := Ideal) y = 0 := by
  unfold k0_pay7
  rw [shapeCast_self]
  exact Ideal.ofBits_zero_f32

/-- One grid point's update of a row's running triple is one `Spec.step` over the tile's scores and hits: the three
    stored values at row `p`, from the triple `(mprev, lprev, tprev)` the point finds. -/
theorem step_m (mprev lprev tprev : Vec Ideal S2048x1 .f32) (p : Fin 2048) :
    k0_pay3 (F := Ideal) (k0_pay11 (F := Ideal) i x0 x1 x2 mprev) (ix2 p (0 : Fin 1))
      = (Cert.Spec.step (tileScore (i 1).val x0 x1 x2 p) (tileHit (i 1).val x3 p)
          ⟨mprev (ix2 p (0 : Fin 1)), lprev (ix2 p (0 : Fin 1)), tprev (ix2 p (0 : Fin 1))⟩).m := by
  rw [pay3_eq]
  exact pay11_apply i x0 x1 x2 mprev p

theorem step_l (mprev lprev tprev : Vec Ideal S2048x1 .f32) (p : Fin 2048) :
    k0_pay1 (F := Ideal) (k0_pay9 (F := Ideal) i x0 x1 x2) (k0_pay12 (F := Ideal) i x0 x1 x2 mprev mprev)
        (k0_pay13 (F := Ideal) i x0 x1 x2 mprev) lprev (ix2 p (0 : Fin 1))
      = (Cert.Spec.step (tileScore (i 1).val x0 x1 x2 p) (tileHit (i 1).val x3 p)
          ⟨mprev (ix2 p (0 : Fin 1)), lprev (ix2 p (0 : Fin 1)), tprev (ix2 p (0 : Fin 1))⟩).l := by
  refine (pay1_apply _ _ _ lprev p).trans ?_
  rw [pay12_apply, pay11_apply]
  refine congrArg₂ (· + ·) rfl (Finset.sum_congr rfl fun j _ => ?_)
  rw [pay9_apply, pay13_apply, pay11_apply]

theorem step_t (mprev lprev tprev : Vec Ideal S2048x1 .f32) (p : Fin 2048) :
    k0_pay2 (F := Ideal) (k0_pay10 (F := Ideal) i x0 x1 x2 x3) tprev (ix2 p (0 : Fin 1))
      = (Cert.Spec.step (tileScore (i 1).val x0 x1 x2 p) (tileHit (i 1).val x3 p)
          ⟨mprev (ix2 p (0 : Fin 1)), lprev (ix2 p (0 : Fin 1)), tprev (ix2 p (0 : Fin 1))⟩).t := by
  refine (pay2_apply _ tprev (ix2 p (0 : Fin 1))).trans ?_
  rw [pay10_apply]
  rfl

end Cert.KernelIdeal.Payloads

end
-- ==== Proof.KBlocks.lean ====
/-
  The four input blocks of the tiled kernel at a grid point, read off the argument arrays.

  The host lines before the call flatten the hidden states to [4096, 1024] and the labels to [4096, 1], pad the
  embeddings with 943 zero rows and transpose them to [1024, 51200], and pad the biases with 943 copies of a large
  negative number into a row [1, 51200]. Grid point t = 50 a + v (a the batch row, v the vocabulary tile) sees rows
  2048 a … 2048 a + 2047 of the flattened hidden states and labels, and columns 1024 v … 1024 v + 1023 of the transposed
  embeddings and of the bias row. So the tile's score of row p at column j is the logit of token (a, p) for word
  1024 v + j while that is a word, and the label compared is token (a, p)'s.
-/
import proofs.«416658_j55568286876202_3_alg».proof.Proof.Gen.KernelIdeal.Frame
import proofs.«416658_j55568286876202_3_alg».proof.Proof.KPayloads
import proofs.«416658_j55568286876202_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The four input blocks at point `t`, at their literal types. -/
abbrev xblk (c : Dev nD) (t : Fin cfg0.N) : Vec Ideal S2048x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t
abbrev lblk (c : Dev nD) (t : Fin cfg0.N) : Vec Ideal S2048x1 .i32 := iblk m c 3 t

/-- The four argument arrays as the launch memory holds them. -/
abbrev argX (c : Dev nD) : Cert.Spec.SX.Idx → EReal := m ((c.tc : Thread nD τ).loc main_arg0)
abbrev argE (c : Dev nD) : Cert.Spec.SE.Idx → EReal := m ((c.tc : Thread nD τ).loc main_arg1)
abbrev argB (c : Dev nD) : Cert.Spec.SB.Idx → EReal := m ((c.tc : Thread nD τ).loc main_arg2)
abbrev argL (c : Dev nD) : Cert.Spec.SL.Idx → BitVec 32 := m ((c.tc : Thread nD τ).loc main_arg3)

/-- Point `t` of the 2 × 50 grid is batch row `t / 50`, vocabulary tile `t % 50`. -/
theorem coords0 (t : Fin cfg0.N) : (grid0.coords t 0).val = t.val / 50 := by
  exact (by decide +kernel : ∀ t : Fin grid0.N, (grid0.coords t 0).val = t.val / 50) t
theorem coords1 (t : Fin cfg0.N) : (grid0.coords t 1).val = t.val % 50 := by
  exact (by decide +kernel : ∀ t : Fin grid0.N, (grid0.coords t 1).val = t.val % 50) t
theorem batch_lt (t : Fin cfg0.N) : t.val / 50 < 2 := by
  exact (by decide +kernel : ∀ t : Fin grid0.N, t.val / 50 < 2) t

/-- The flattened hidden states the first window reads: the argument reshaped to [4096, 1024] (the narrowing to
    bf16 is the identity on ideal values). -/
theorem eV1 (c : Dev nD) : (V m c main_v1 : S4096x1024.Idx → EReal)
    = shapeCast S4096x1024 (argX m c) shapeCasts_S2x2048x1024_S4096x1024 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The flattened labels the fourth window reads: the argument reshaped to [4096, 1]. -/
theorem eV2 (c : Dev nD) : (V m c main_v2 : S4096x1.Idx → BitVec 32)
    = shapeCast S4096x1 (argL m c) shapeCasts_S2x2048_S4096x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The embeddings the second window reads: padded with 943 rows of the integer 0 converted, then transposed. -/
theorem eV5 (c : Dev nD) : (V m c main_v5 : S1024x51200.Idx → EReal)
    = transpose S1024x51200 [1, 0]
        (pad S51200x1024 ![0, 0] ![943, 0] ![0, 0] (argE m c) (sitofp .bf16 (constantI S_ 32 0#32) : FVec Ideal S_ .bf16)
          pads_S50257x1024_S51200x1024_09430_000 h_S_)
        transposes_S51200x1024_S1024x51200_1_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The biases the third window reads: padded with 943 copies of a constant, as one row. -/
theorem eV7 (c : Dev nD) : (V m c main_v7 : S1x51200.Idx → EReal)
    = shapeCast S1x51200
        (pad S51200 ![0] ![943] ![0] (argB m c) (constant S_ .f32 0xFF333332#32 : FVec Ideal S_ .f32)
          pads_S50257_S51200_09430 h_S_)
        shapeCasts_S51200_S1x51200 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The four windows' index maps, decided over the grid: the hidden-state and label windows move with the batch row,
    the embedding and bias windows with the vocabulary tile. -/
theorem idx_facts : ∀ t : Fin cfg0.N,
    win0_0.index t (0 : Fin 2) = t.val / 50 ∧ win0_0.index t (1 : Fin 2) = 0
    ∧ win0_1.index t (0 : Fin 2) = 0 ∧ win0_1.index t (1 : Fin 2) = t.val % 50
    ∧ win0_2.index t (0 : Fin 2) = 0 ∧ win0_2.index t (1 : Fin 2) = t.val % 50
    ∧ win0_3.index t (0 : Fin 2) = t.val / 50 ∧ win0_3.index t (1 : Fin 2) = 0 :=
  (by decide +kernel : ∀ t : Fin grid0.N,
    win0_0.index t (0 : Fin 2) = t.val / 50 ∧ win0_0.index t (1 : Fin 2) = 0
    ∧ win0_1.index t (0 : Fin 2) = 0 ∧ win0_1.index t (1 : Fin 2) = t.val % 50
    ∧ win0_2.index t (0 : Fin 2) = 0 ∧ win0_2.index t (1 : Fin 2) = t.val % 50
    ∧ win0_3.index t (0 : Fin 2) = t.val / 50 ∧ win0_3.index t (1 : Fin 2) = 0)

/-- A column of a vocabulary tile lies in the padded width. -/
theorem col_lt (t : Fin cfg0.N) (j : Fin 1024) : 1024 * (t.val % 50) + j.val < 51200 := by
  have := Nat.mod_lt t.val (by decide : 0 < 50)
  have := j.isLt
  omega

/-- The hidden-state block: row `p` is token `(t / 50, p)`. -/
theorem xblk_apply (c : Dev nD) (t : Fin cfg0.N) (p : Fin 2048) (k : Fin 1024) :
    xblk m c t (ix2 p k) = argX m c (ix3 ⟨t.val / 50, batch_lt t⟩ p k) := by
  show V m c main_v1 (((cfg0.win 0).blk t).view.emb (ix2 p k)) = _
  rw [eV1]
  obtain ⟨e0, e1, -⟩ := idx_facts t
  have hb := batch_lt t
  refine shapeCast_apply _ _ _ _ ?_
  rw [Shape.rowMajor_val_three, Shape.rowMajor_val_two]
  show ((t.val / 50) * 2048 + p.val) * 1024 + k.val
      = (win0_0.index t (0 : Fin 2) * 2048 + 1 * p.val) * 1024 + (win0_0.index t (1 : Fin 2) * 1024 + 1 * k.val)
  rw [e0, e1]
  omega

/-- Where the embedding block's entry `(k, j)` sits in the transposed padded array. -/
theorem wblk_emb (t : Fin cfg0.N) (k : Fin 1024) (j : Fin 1024) :
    ((cfg0.win 1).blk t).view.emb (ix2 k j) = ix2 k (⟨1024 * (t.val % 50) + j.val, col_lt t j⟩ : Fin 51200) := by
  obtain ⟨-, -, e0, e1, -⟩ := idx_facts t
  funext a
  apply Fin.ext
  match a with
  | ⟨0, _⟩ => show win0_1.index t (0 : Fin 2) * 1024 + 1 * k.val = k.val; rw [e0]; omega
  | ⟨1, _⟩ => show win0_1.index t (1 : Fin 2) * 1024 + 1 * j.val = 1024 * (t.val % 50) + j.val; rw [e1]; omega

/-- The embedding block: column `j` is word `1024 (t % 50) + j`, and zero past the vocabulary. -/
theorem wblk_apply (c : Dev nD) (t : Fin cfg0.N) (k : Fin 1024) (j : Fin 1024) :
    wblk m c t (ix2 k j)
      = if h : 1024 * (t.val % 50) + j.val < 50257 then argE m c (ix2 ⟨1024 * (t.val % 50) + j.val, h⟩ k) else 0 := by
  show V m c main_v5 (((cfg0.win 1).blk t).view.emb (ix2 k j)) = _
  rw [eV5, wblk_emb, transpose_ix2_apply]
  by_cases h : 1024 * (t.val % 50) + j.val < 50257
  · rw [dif_pos h]
    refine pad_apply_of_inside _ _ _ _ _ _ _ _ (ix2 (⟨1024 * (t.val % 50) + j.val, h⟩ : Fin 50257) k) fun a => ?_
    match a with
    | ⟨0, _⟩ => show 1024 * (t.val % 50) + j.val = 0 + (1024 * (t.val % 50) + j.val) * (0 + 1); omega
    | ⟨1, _⟩ => show k.val = 0 + k.val * (0 + 1); omega
  · rw [dif_neg h]
    refine (pad_apply_of_not_inside _ _ _ _ _ _ _ _ (0 : Fin 2) ?_).trans ?_
    · show ¬(0 ≤ 1024 * (t.val % 50) + j.val ∧ (1024 * (t.val % 50) + j.val - 0) % (0 + 1) = 0
        ∧ (1024 * (t.val % 50) + j.val - 0) / (0 + 1) < 50257)
      omega
    · show ((((0#32 : BitVec 32).toInt : ℤ) : ℝ) : EReal) = 0
      simp

/-- The bias block, at the columns that are words. -/
theorem bblk_apply (c : Dev nD) (t : Fin cfg0.N) (j : Fin 1024) (h : 1024 * (t.val % 50) + j.val < 50257) :
    bblk m c t (ix2 (0 : Fin 1) j) = argB m c (ix1 ⟨1024 * (t.val % 50) + j.val, h⟩) := by
  show V m c main_v7 (((cfg0.win 2).blk t).view.emb (ix2 (0 : Fin 1) j)) = _
  rw [eV7]
  obtain ⟨-, -, -, -, e0, e1, -⟩ := idx_facts t
  refine (shapeCast_apply _ _ _ (ix1 (⟨1024 * (t.val % 50) + j.val, col_lt t j⟩ : Fin 51200)) ?_).trans ?_
  · rw [Shape.rowMajor_val_one, Shape.rowMajor_val_two]
    show 1024 * (t.val % 50) + j.val
        = (win0_2.index t (0 : Fin 2) * 1 + 1 * (0 : Fin 1).val) * 51200 + (win0_2.index t (1 : Fin 2) * 1024 + 1 * j.val)
    rw [e0, e1]
    simp only [Fin.val_zero]
    omega
  · refine pad_apply_of_inside _ _ _ _ _ _ _ _ (ix1 (⟨1024 * (t.val % 50) + j.val, h⟩ : Fin 50257)) fun a => ?_
    match a with
    | ⟨0, _⟩ => show 1024 * (t.val % 50) + j.val = 0 + (1024 * (t.val % 50) + j.val) * (0 + 1); omega

/-- The label block: row `p` is token `(t / 50, p)`'s label. -/
theorem lblk_apply (c : Dev nD) (t : Fin cfg0.N) (p : Fin 2048) :
    lblk m c t (ix2 p (0 : Fin 1)) = argL m c (ix2 ⟨t.val / 50, batch_lt t⟩ p) := by
  show V m c main_v2 (((cfg0.win 3).blk t).view.emb (ix2 p (0 : Fin 1))) = _
  rw [eV2]
  obtain ⟨-, -, -, -, -, -, e0, e1⟩ := idx_facts t
  have hb := batch_lt t
  refine shapeCast_apply _ _ _ _ ?_
  rw [Shape.rowMajor_val_two, Shape.rowMajor_val_two]
  show (t.val / 50) * 2048 + p.val
      = (win0_3.index t (0 : Fin 2) * 2048 + 1 * p.val) * 1 + (win0_3.index t (1 : Fin 2) * 1 + 1 * (0 : Fin 1).val)
  rw [e0, e1]
  simp only [Fin.val_zero]
  omega

/-- The tile's scores at point `t` are the padded logits of token `(t / 50, p)` at tile `t % 50`. -/
theorem tileScore_eq (c : Dev nD) (t : Fin cfg0.N) (p : Fin 2048) :
    Cert.KernelIdeal.Payloads.tileScore (grid0.coords t 1).val (xblk m c t) (wblk m c t) (bblk m c t) p
      = Cert.Spec.tile (argX m c) (argE m c) (argB m c) ⟨t.val / 50, batch_lt t⟩ p (t.val % 50) := by
  funext j
  unfold Cert.KernelIdeal.Payloads.tileScore Cert.Spec.tile Cert.Spec.score
  rw [coords1]
  by_cases h : 1024 * (t.val % 50) + j.val < 50257
  · rw [if_pos h, dif_pos h]
    unfold Cert.Spec.logit
    rw [bblk_apply m c t j h]
    congr 1
    refine Finset.sum_congr rfl fun k _ => ?_
    rw [xblk_apply, wblk_apply, dif_pos h]
  · rw [if_neg h, dif_neg h]

/-- The tile's hits at point `t` are those of token `(t / 50, p)`'s label at tile `t % 50`. -/
theorem tileHit_eq (c : Dev nD) (t : Fin cfg0.N) (p : Fin 2048) :
    Cert.KernelIdeal.Payloads.tileHit (grid0.coords t 1).val (lblk m c t) p
      = Cert.Spec.hits (argL m c) ⟨t.val / 50, batch_lt t⟩ p (t.val % 50) := by
  funext j
  unfold Cert.KernelIdeal.Payloads.tileHit Cert.Spec.hits
  rw [coords1, lblk_apply]

end Cert.KernelIdeal.Blocks

end
-- ==== Proof.KInvariant.lean ====
/-
  The running triple the tiled kernel carries, point by point.

  After the body at grid point t = 50 a + v, row p of the three carried buffers holds the running (maximum, sum, target
  score) of token (a, p) after vocabulary tiles 0 … v: at v = 0 one step from (-∞, 0, 0), at every later tile one step
  from what the point before left, which is the same token's triple after tiles 0 … v - 1. At v = 49 the output block's
  row p holds the token's loss m + log l - t.
-/
import proofs.«416658_j55568286876202_3_alg».proof.Proof.Gen.KernelIdeal.Frame
import proofs.«416658_j55568286876202_3_alg».proof.Proof.KPieces
import proofs.«416658_j55568286876202_3_alg».proof.Proof.KPayloads
import proofs.«416658_j55568286876202_3_alg».proof.Proof.KBlocks
import proofs.«416658_j55568286876202_3_alg».proof.Proof.Spec

set_option maxRecDepth 16384

noncomputable section

namespace Cert.KernelIdeal.Invariant

open Cert.KernelIdeal Cert.KernelIdeal.Gen Cert.KernelIdeal.Blocks
open Idealize.ShloMosaic Idealize.ShloMosaic.TcCoe Idealize.ShloMosaic.ValueIdx Idealize.SL.Sem

variable (m : (ℓ : Loc nD τ sig) → Buf (Elt Ideal) ℓ)

/-- The running triple of token `(t / 50, p)` after tiles `0 … t % 50`. -/
abbrev accOf (c : Dev nD) (t : Fin cfg0.N) (p : Fin 2048) : Cert.Spec.Acc :=
  Cert.Spec.accAt (argX m c) (argE m c) (argB m c) (argL m c) ⟨t.val / 50, batch_lt t⟩ p (t.val % 50)

/-- What the point before `t` left in the three carried buffers. -/
abbrev prevM (c : Dev nD) (t : Fin cfg0.N) : Vec Ideal S2048x1 .f32 :=
  (outsAt0 m c (t.val - 1) (Nat.lt_of_le_of_lt (Nat.sub_le _ _) t.isLt)).2.1
abbrev prevL (c : Dev nD) (t : Fin cfg0.N) : Vec Ideal S2048x1 .f32 :=
  (outsAt0 m c (t.val - 1) (Nat.lt_of_le_of_lt (Nat.sub_le _ _) t.isLt)).2.2.1
abbrev prevT (c : Dev nD) (t : Fin cfg0.N) : Vec Ideal S2048x1 .f32 :=
  (outsAt0 m c (t.val - 1) (Nat.lt_of_le_of_lt (Nat.sub_le _ _) t.isLt)).2.2.2

/-- The first tile's step is from (-∞, 0, 0); a later tile's from the triple before it. -/
theorem accAt_zero (X : Cert.Spec.SX.Idx → EReal) (E : Cert.Spec.SE.Idx → EReal) (B : Cert.Spec.SB.Idx → EReal)
    (Lb : Cert.Spec.SL.Idx → BitVec 32) (a : Fin 2) (p : Fin 2048) :
    Cert.Spec.accAt X E B Lb a p 0
      = Cert.Spec.step (Cert.Spec.tile X E B a p 0) (Cert.Spec.hits Lb a p 0) ⟨⊥, 0, 0⟩ := rfl

theorem accAt_succ (X : Cert.Spec.SX.Idx → EReal) (E : Cert.Spec.SE.Idx → EReal) (B : Cert.Spec.SB.Idx → EReal)
    (Lb : Cert.Spec.SL.Idx → BitVec 32) (a : Fin 2) (p : Fin 2048) (k : ℕ) :
    Cert.Spec.accAt X E B Lb a p (k + 1)
      = Cert.Spec.step (Cert.Spec.tile X E B a p (k + 1)) (Cert.Spec.hits Lb a p (k + 1)) (Cert.Spec.accAt X E B Lb a p k) := rfl

/-- One step at point `t` from a triple `s`, in the point's own blocks, is the step over the token's tile `t % 50`. -/
theorem step_at (c : Dev nD) (t : Fin cfg0.N) (p : Fin 2048) (s : Cert.Spec.Acc) :
    Cert.Spec.step (Cert.KernelIdeal.Payloads.tileScore (grid0.coords t 1).val (xblk m c t) (wblk m c t) (bblk m c t) p)
        (Cert.KernelIdeal.Payloads.tileHit (grid0.coords t 1).val (lblk m c t) p) s
      = Cert.Spec.step (Cert.Spec.tile (argX m c) (argE m c) (argB m c) ⟨t.val / 50, batch_lt t⟩ p (t.val % 50))
          (Cert.Spec.hits (argL m c) ⟨t.val / 50, batch_lt t⟩ p (t.val % 50)) s := by
  rw [tileScore_eq m c t p, tileHit_eq m c t p]

/-- At the first tile of a batch row the point's step from (-∞, 0, 0) is the token's triple after tile 0. -/
theorem first_acc (c : Dev nD) (t : Fin cfg0.N) (h0 : t.val % 50 = 0) (p : Fin 2048) :
    Cert.Spec.step (Cert.Spec.tile (argX m c) (argE m c) (argB m c) ⟨t.val / 50, batch_lt t⟩ p (t.val % 50))
        (Cert.Spec.hits (argL m c) ⟨t.val / 50, batch_lt t⟩ p (t.val % 50)) ⟨⊥, 0, 0⟩
      = accOf m c t p := by
  show _ = Cert.Spec.accAt (argX m c) (argE m c) (argB m c) (argL m c) ⟨t.val / 50, batch_lt t⟩ p (t.val % 50)
  rw [h0]
  exact (accAt_zero _ _ _ _ _ _).symm

/-- At a later tile the point's step from the triple of the point before is the token's triple after this tile. -/
theorem later_acc (c : Dev nD) (t : Fin cfg0.N) (h0 : ¬t.val % 50 = 0) (p : Fin 2048) :
    Cert.Spec.step (Cert.Spec.tile (argX m c) (argE m c) (argB m c) ⟨t.val / 50, batch_lt t⟩ p (t.val % 50))
        (Cert.Spec.hits (argL m c) ⟨t.val / 50, batch_lt t⟩ p (t.val % 50))
        (Cert.Spec.accAt (argX m c) (argE m c) (argB m c) (argL m c) ⟨t.val / 50, batch_lt t⟩ p (t.val % 50 - 1))
      = accOf m c t p := by
  show _ = Cert.Spec.accAt (argX m c) (argE m c) (argB m c) (argL m c) ⟨t.val / 50, batch_lt t⟩ p (t.val % 50)
  obtain ⟨k, hk⟩ : ∃ k, t.val % 50 = k + 1 := ⟨t.val % 50 - 1, by omega⟩
  rw [hk]
  exact (accAt_succ _ _ _ _ _ _ _).symm

/-- Two tokens and tiles that are the same give the same triple. -/
theorem accAt_congr (X : Cert.Spec.SX.Idx → EReal) (E : Cert.Spec.SE.Idx → EReal) (B : Cert.Spec.SB.Idx → EReal)
    (Lb : Cert.Spec.SL.Idx → BitVec 32) (p : Fin 2048) {a a' : Fin 2} (ha : a = a') {k k' : ℕ} (hk : k = k') :
    Cert.Spec.accAt X E B Lb a p k = Cert.Spec.accAt X E B Lb a' p k' := by
  subst ha; subst hk; rfl

/-! ## The first tile of a batch row -/

section First
variable (c : Dev nD) (t : Fin cfg0.N) (h0 : t.val % 50 = 0) (h1 : ¬t.val % 50 = 49) (p : Fin 2048)
include h0 h1

theorem first_m : (outsAt0 m c t.val t.isLt).2.1 (ix2 p (0 : Fin 1)) = (accOf m c t p).m := by
  rw [outsAt0_A m c t h0 h1]
  dsimp only
  refine (congrFun (Cert.KernelIdeal.Pieces.sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (hc0 := (hcond0_0 t).mpr h0) (hc1 := fun h => h1 ((hcond0_1 t).mp h))) (ix2 p (0 : Fin 1))).trans ?_
  refine (Cert.KernelIdeal.Payloads.step_m (grid0.coords t) (xblk m c t) (wblk m c t) (bblk m c t) (lblk m c t) (k0_pay5 (F := Ideal)) (k0_pay6 (F := Ideal)) (k0_pay7 (F := Ideal)) p).trans ?_
  rw [Cert.KernelIdeal.Payloads.pay5_apply, Cert.KernelIdeal.Payloads.pay6_apply, Cert.KernelIdeal.Payloads.pay7_apply,
    step_at m c t p, first_acc m c t h0 p]

theorem first_l : (outsAt0 m c t.val t.isLt).2.2.1 (ix2 p (0 : Fin 1)) = (accOf m c t p).l := by
  rw [outsAt0_A m c t h0 h1]
  dsimp only
  refine (congrFun (Cert.KernelIdeal.Pieces.sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (hc0 := (hcond0_0 t).mpr h0) (hc1 := fun h => h1 ((hcond0_1 t).mp h))) (ix2 p (0 : Fin 1))).trans ?_
  refine (Cert.KernelIdeal.Payloads.step_l (grid0.coords t) (xblk m c t) (wblk m c t) (bblk m c t) (lblk m c t) (k0_pay5 (F := Ideal)) (k0_pay6 (F := Ideal)) (k0_pay7 (F := Ideal)) p).trans ?_
  rw [Cert.KernelIdeal.Payloads.pay5_apply, Cert.KernelIdeal.Payloads.pay6_apply, Cert.KernelIdeal.Payloads.pay7_apply,
    step_at m c t p, first_acc m c t h0 p]

theorem first_t : (outsAt0 m c t.val t.isLt).2.2.2 (ix2 p (0 : Fin 1)) = (accOf m c t p).t := by
  rw [outsAt0_A m c t h0 h1]
  dsimp only
  refine (congrFun (Cert.KernelIdeal.Pieces.sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (hc0 := (hcond0_0 t).mpr h0) (hc1 := fun h => h1 ((hcond0_1 t).mp h))) (ix2 p (0 : Fin 1))).trans ?_
  refine (Cert.KernelIdeal.Payloads.step_t (grid0.coords t) (xblk m c t) (wblk m c t) (bblk m c t) (lblk m c t) (k0_pay5 (F := Ideal)) (k0_pay6 (F := Ideal)) (k0_pay7 (F := Ideal)) p).trans ?_
  rw [Cert.KernelIdeal.Payloads.pay5_apply, Cert.KernelIdeal.Payloads.pay6_apply, Cert.KernelIdeal.Payloads.pay7_apply,
    step_at m c t p, first_acc m c t h0 p]

end First

/-! ## A later tile, from what the point before left -/

section Later
variable (c : Dev nD) (t : Fin cfg0.N) (h0 : ¬t.val % 50 = 0) (p : Fin 2048)
  (ihm : prevM m c t (ix2 p (0 : Fin 1))
    = (Cert.Spec.accAt (argX m c) (argE m c) (argB m c) (argL m c) ⟨t.val / 50, batch_lt t⟩ p (t.val % 50 - 1)).m)
  (ihl : prevL m c t (ix2 p (0 : Fin 1))
    = (Cert.Spec.accAt (argX m c) (argE m c) (argB m c) (argL m c) ⟨t.val / 50, batch_lt t⟩ p (t.val % 50 - 1)).l)
  (iht : prevT m c t (ix2 p (0 : Fin 1))
    = (Cert.Spec.accAt (argX m c) (argE m c) (argB m c) (argL m c) ⟨t.val / 50, batch_lt t⟩ p (t.val % 50 - 1)).t)
include h0 ihm ihl iht

theorem later_m : (outsAt0 m c t.val t.isLt).2.1 (ix2 p (0 : Fin 1)) = (accOf m c t p).m := by
  by_cases h1 : t.val % 50 = 49
  · rw [outsAt0_C m c t h0 h1]
    dsimp only
    refine (congrFun (Cert.KernelIdeal.Pieces.sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := (hcond0_1 t).mpr h1)) (ix2 p (0 : Fin 1))).trans ?_
    refine (Cert.KernelIdeal.Payloads.step_m (grid0.coords t) (xblk m c t) (wblk m c t) (bblk m c t) (lblk m c t) (prevM m c t) (prevL m c t) (prevT m c t) p).trans ?_
    rw [ihm, ihl, iht, step_at m c t p]
    exact congrArg Cert.Spec.Acc.m (later_acc m c t h0 p)
  · rw [outsAt0_B m c t h0 h1]
    dsimp only
    refine (congrFun (Cert.KernelIdeal.Pieces.sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := fun h => h1 ((hcond0_1 t).mp h))) (ix2 p (0 : Fin 1))).trans ?_
    refine (Cert.KernelIdeal.Payloads.step_m (grid0.coords t) (xblk m c t) (wblk m c t) (bblk m c t) (lblk m c t) (prevM m c t) (prevL m c t) (prevT m c t) p).trans ?_
    rw [ihm, ihl, iht, step_at m c t p]
    exact congrArg Cert.Spec.Acc.m (later_acc m c t h0 p)

theorem later_l : (outsAt0 m c t.val t.isLt).2.2.1 (ix2 p (0 : Fin 1)) = (accOf m c t p).l := by
  by_cases h1 : t.val % 50 = 49
  · rw [outsAt0_C m c t h0 h1]
    dsimp only
    refine (congrFun (Cert.KernelIdeal.Pieces.sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := (hcond0_1 t).mpr h1)) (ix2 p (0 : Fin 1))).trans ?_
    refine (Cert.KernelIdeal.Payloads.step_l (grid0.coords t) (xblk m c t) (wblk m c t) (bblk m c t) (lblk m c t) (prevM m c t) (prevL m c t) (prevT m c t) p).trans ?_
    rw [ihm, ihl, iht, step_at m c t p]
    exact congrArg Cert.Spec.Acc.l (later_acc m c t h0 p)
  · rw [outsAt0_B m c t h0 h1]
    dsimp only
    refine (congrFun (Cert.KernelIdeal.Pieces.sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := fun h => h1 ((hcond0_1 t).mp h))) (ix2 p (0 : Fin 1))).trans ?_
    refine (Cert.KernelIdeal.Payloads.step_l (grid0.coords t) (xblk m c t) (wblk m c t) (bblk m c t) (lblk m c t) (prevM m c t) (prevL m c t) (prevT m c t) p).trans ?_
    rw [ihm, ihl, iht, step_at m c t p]
    exact congrArg Cert.Spec.Acc.l (later_acc m c t h0 p)

theorem later_t : (outsAt0 m c t.val t.isLt).2.2.2 (ix2 p (0 : Fin 1)) = (accOf m c t p).t := by
  by_cases h1 : t.val % 50 = 49
  · rw [outsAt0_C m c t h0 h1]
    dsimp only
    refine (congrFun (Cert.KernelIdeal.Pieces.sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := (hcond0_1 t).mpr h1)) (ix2 p (0 : Fin 1))).trans ?_
    refine (Cert.KernelIdeal.Payloads.step_t (grid0.coords t) (xblk m c t) (wblk m c t) (bblk m c t) (lblk m c t) (prevM m c t) (prevL m c t) (prevT m c t) p).trans ?_
    rw [ihm, ihl, iht, step_at m c t p]
    exact congrArg Cert.Spec.Acc.t (later_acc m c t h0 p)
  · rw [outsAt0_B m c t h0 h1]
    dsimp only
    refine (congrFun (Cert.KernelIdeal.Pieces.sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := fun h => h1 ((hcond0_1 t).mp h))) (ix2 p (0 : Fin 1))).trans ?_
    refine (Cert.KernelIdeal.Payloads.step_t (grid0.coords t) (xblk m c t) (wblk m c t) (bblk m c t) (lblk m c t) (prevM m c t) (prevL m c t) (prevT m c t) p).trans ?_
    rw [ihm, ihl, iht, step_at m c t p]
    exact congrArg Cert.Spec.Acc.t (later_acc m c t h0 p)

/-- At the last tile the output block's row is the loss from the three values just stored. -/
theorem last_out (h1 : t.val % 50 = 49) :
    (outsAt0 m c t.val t.isLt).1 (ix2 p (0 : Fin 1))
      = ((accOf m c t p).m + Ideal.log (accOf m c t p).l) - (accOf m c t p).t := by
  rw [outsAt0_C m c t h0 h1]
  dsimp only
  refine (congrFun (Cert.KernelIdeal.Pieces.out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xblk m c t) (wblk m c t) (bblk m c t) (lblk m c t) (prevM m c t) (prevL m c t) (prevT m c t) (hc0 := fun h => h0 ((hcond0_0 t).mp h)) (hc1 := (hcond0_1 t).mpr h1)) (ix2 p (0 : Fin 1))).trans ?_
  refine (Cert.KernelIdeal.Payloads.pay4_apply _ _ _ (ix2 p (0 : Fin 1))).trans ?_
  rw [Cert.KernelIdeal.Payloads.step_m (grid0.coords t) (xblk m c t) (wblk m c t) (bblk m c t) (lblk m c t) (prevM m c t) (prevL m c t) (prevT m c t) p,
    Cert.KernelIdeal.Payloads.step_l (grid0.coords t) (xblk m c t) (wblk m c t) (bblk m c t) (lblk m c t) (prevM m c t) (prevL m c t) (prevT m c t) p,
    Cert.KernelIdeal.Payloads.step_t (grid0.coords t) (xblk m c t) (wblk m c t) (bblk m c t) (lblk m c t) (prevM m c t) (prevL m c t) (prevT m c t) p,
    ihm, ihl, iht, step_at m c t p, later_acc m c t h0 p]

end Later

/-- THE INVARIANT: after the body at point `t`, row `p` of the three carried buffers is the token's triple. -/
theorem carried (c : Dev nD) : ∀ (n : ℕ) (hn : n < cfg0.N) (p : Fin 2048),
    (outsAt0 m c n hn).2.1 (ix2 p (0 : Fin 1)) = (accOf m c ⟨n, hn⟩ p).m
    ∧ (outsAt0 m c n hn).2.2.1 (ix2 p (0 : Fin 1)) = (accOf m c ⟨n, hn⟩ p).l
    ∧ (outsAt0 m c n hn).2.2.2 (ix2 p (0 : Fin 1)) = (accOf m c ⟨n, hn⟩ p).t := by
  intro n
  induction n with
  | zero =>
    intro hn p
    have h1 : ¬((⟨0, hn⟩ : Fin cfg0.N).val % 50 = 49) := by show ¬(0 % 50 = 49); omega
    exact ⟨first_m m c ⟨0, hn⟩ rfl h1 p, first_l m c ⟨0, hn⟩ rfl h1 p, first_t m c ⟨0, hn⟩ rfl h1 p⟩
  | succ n ih =>
    intro hn p
    by_cases h0 : (n + 1) % 50 = 0
    · have h1 : ¬(n + 1) % 50 = 49 := by omega
      exact ⟨first_m m c ⟨n + 1, hn⟩ h0 h1 p, first_l m c ⟨n + 1, hn⟩ h0 h1 p, first_t m c ⟨n + 1, hn⟩ h0 h1 p⟩
    · have hn' : n < cfg0.N := Nat.lt_of_succ_lt hn
      have hb : (n + 1) / 50 < 2 := batch_lt ⟨n + 1, hn⟩
      have e : Cert.Spec.accAt (argX m c) (argE m c) (argB m c) (argL m c) ⟨n / 50, batch_lt ⟨n, hn'⟩⟩ p (n % 50)
          = Cert.Spec.accAt (argX m c) (argE m c) (argB m c) (argL m c) ⟨(n + 1) / 50, hb⟩ p ((n + 1) % 50 - 1) :=
        accAt_congr _ _ _ _ p (Fin.ext (by show n / 50 = (n + 1) / 50; omega)) (by omega)
      have ihm := ((ih hn' p).1).trans (congrArg Cert.Spec.Acc.m e)
      have ihl := ((ih hn' p).2.1).trans (congrArg Cert.Spec.Acc.l e)
      have iht := ((ih hn' p).2.2).trans (congrArg Cert.Spec.Acc.t e)
      exact ⟨later_m m c ⟨n + 1, hn⟩ h0 p ihm ihl iht, later_l m c ⟨n + 1, hn⟩ h0 p ihm ihl iht,
        later_t m c ⟨n + 1, hn⟩ h0 p ihm ihl iht⟩

/-- The output block at the last tile of batch row `a`: row `p` holds token `(a, p)`'s loss. -/
theorem out_last (c : Dev nD) (t : Fin cfg0.N) (h1 : t.val % 50 = 49) (p : Fin 2048) :
    (outsAt0 m c t.val t.isLt).1 (ix2 p (0 : Fin 1))
      = Cert.Spec.rowLoss (argX m c) (argE m c) (argB m c) (argL m c) ⟨t.val / 50, batch_lt t⟩ p := by
  have h0 : ¬t.val % 50 = 0 := by omega
  have hprev : t.val - 1 < cfg0.N := Nat.lt_of_le_of_lt (Nat.sub_le _ _) t.isLt
  have hb : (t.val - 1) / 50 < 2 := batch_lt ⟨t.val - 1, hprev⟩
  have e : Cert.Spec.accAt (argX m c) (argE m c) (argB m c) (argL m c) ⟨(t.val - 1) / 50, hb⟩ p ((t.val - 1) % 50)
      = Cert.Spec.accAt (argX m c) (argE m c) (argB m c) (argL m c) ⟨t.val / 50, batch_lt t⟩ p (t.val % 50 - 1) :=
    accAt_congr _ _ _ _ p (Fin.ext (by show (t.val - 1) / 50 = t.val / 50; omega)) (by omega)
  have ih := carried m c (t.val - 1) hprev p
  refine (last_out m c t h0 p ((ih.1).trans (congrArg Cert.Spec.Acc.m e)) ((ih.2.1).trans (congrArg Cert.Spec.Acc.l e))
    ((ih.2.2).trans (congrArg Cert.Spec.Acc.t e)) h1).trans ?_
  have e49 : accOf m c t p
      = Cert.Spec.accAt (argX m c) (argE m c) (argB m c) (argL m c) ⟨t.val / 50, batch_lt t⟩ p 49 :=
    accAt_congr _ _ _ _ p rfl h1
  rw [e49]
  rfl

end Cert.KernelIdeal.Invariant

end
-- ==== Proof.SpecLaw.lean ====
/-
  The tiled running (maximum, sum, target) of a token's logits and the whole-vocabulary log-softmax give the same
  mean loss: the arithmetic of real numbers behind it.

  Per token, with real logits `z`: after each tile the running triple is a real shift `m`, the sum of
  `exp (z c - m)` over the words seen so far (padding columns contribute `exp (-∞) = 0`) and the label's logit once
  its column has been seen; the shift moves by the factor `exp (m - m')`. After the fiftieth tile every word has been
  seen, and `m + log ∑ exp (z c - m)` is the same number for every real shift, the whole-vocabulary maximum among
  them. The two results then sum the same real numbers over the same 4096 tokens, indexed two ways.
-/
import proofs.«416658_j55568286876202_3_alg».proof.Proof.Spec
import Mathlib.Analysis.SpecialFunctions.Log.Basic
import Mathlib.Data.EReal.Operations

noncomputable section

namespace Cert.Spec

open Idealize.ShloMosaic Idealize.ShloMosaic.ValueIdx

/-- The word 4096.0 is the real number 4096. -/
theorem ofBits_4096 : Ideal.ofBits .f32 0x45800000#32 = ((4096 : ℝ) : EReal) := by
  simp [Ideal.ofBits, Ideal.ieee, -EReal.coe_mul]
  norm_num

/-- An extended real that is neither infinity is a real number. -/
theorem exists_real {x : EReal} (h1 : x ≠ ⊤) (h2 : x ≠ ⊥) : ∃ r : ℝ, x = (r : EReal) :=
  ⟨x.toReal, (EReal.coe_toReal h1 h2).symm⟩

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two real numbers, taken in the extended reals. -/
theorem coe_max' (x y : ℝ) : max (x : EReal) (y : EReal) = ((max x y : ℝ) : EReal) :=
  (EReal.coe_strictMono.monotone.map_max).symm

/-- The maximum from -∞ of finitely many real numbers, at least one of them, is a real number. -/
theorem fold_max_real {ι : Type*} (s : Finset ι) (f : ι → EReal) (i₀ : ι) (h₀ : i₀ ∈ s)
    (hbot : f i₀ ≠ ⊥) (htop : ∀ i ∈ s, f i ≠ ⊤) : ∃ r : ℝ, s.fold max ⊥ f = (r : EReal) := by
  apply exists_real
  · apply ne_of_lt
    rw [Finset.fold_max_lt]
    exact ⟨bot_lt_top, fun i hi => lt_top_iff_ne_top.mpr (htop i hi)⟩
  · apply ne_of_gt
    rw [Finset.lt_fold_max]
    exact Or.inr ⟨i₀, h₀, bot_lt_iff_ne_bot.mpr hbot⟩

section Token

variable (z : Fin 50257 → ℝ)

/-- Column `n` of the vocabulary padded with -∞, for real logits `z`. -/
def sN (n : ℕ) : EReal := if h : n < 50257 then ((z ⟨n, h⟩ : ℝ) : EReal) else ⊥

/-- `exp (z n - m)` at a word's column, zero at a padding column. -/
def eN (m : ℝ) (n : ℕ) : ℝ := if h : n < 50257 then Real.exp (z ⟨n, h⟩ - m) else 0

/-- The logit at the label's column, zero at every other column. -/
def tN (lab n : ℕ) : ℝ := if h : n < 50257 then (if lab = n then z ⟨n, h⟩ else 0) else 0

theorem sN_ne_top (n : ℕ) : sN z n ≠ ⊤ := by
  unfold sN; split
  · exact EReal.coe_ne_top _
  · exact bot_ne_top

theorem sN_ne_bot {n : ℕ} (h : n < 50257) : sN z n ≠ ⊥ := by
  unfold sN; rw [dif_pos h]; exact EReal.coe_ne_bot _

/-- A padding column contributes `exp (-∞) = 0`, a word's column `exp (z n - m)`. -/
theorem exp_sN_sub (m : ℝ) (n : ℕ) : Ideal.exp (sN z n - (m : EReal)) = ((eN z m n : ℝ) : EReal) := by
  unfold sN eN
  split
  · rw [← EReal.coe_sub, Ideal.exp_coe]
  · rw [EReal.bot_sub, Ideal.exp_bot, EReal.coe_zero]

/-- The label is a word, so a column that matches it is a word's column. -/
theorem hit_term (lab n : ℕ) (hlab : lab < 50257) :
    (if decide (lab = n) = true then sN z n else 0) = ((tN z lab n : ℝ) : EReal) := by
  unfold sN tN
  by_cases h : lab = n
  · subst h
    rw [if_pos (decide_eq_true rfl), dif_pos hlab, dif_pos hlab, if_pos rfl]
  · rw [if_neg (by simpa using h)]
    split <;> exact EReal.coe_zero.symm

/-- Moving the shift from `m` to `m'` rescales every term by `exp (m - m')`. -/
theorem rescale (m m' : ℝ) (s : Finset ℕ) :
    Real.exp (m - m') * ∑ n ∈ s, eN z m n = ∑ n ∈ s, eN z m' n := by
  rw [Finset.mul_sum]
  refine Finset.sum_congr rfl fun n _ => ?_
  unfold eN
  split
  · rw [← Real.exp_add]; congr 1; ring
  · rw [mul_zero]

/-- One tile folded into a running triple of real numbers. -/
theorem step_real (S : Fin 1024 → EReal) (hit : Fin 1024 → Bool) (base lab : ℕ) (hbase : base < 50257)
    (hlab : lab < 50257) (hS : ∀ j : Fin 1024, S j = sN z (base + j.val))
    (hhit : ∀ j : Fin 1024, hit j = decide (lab = base + j.val))
    (s : Acc) (m l t : ℝ) (hm : s.m = (m : EReal)) (hl : s.l = (l : EReal)) (ht : s.t = (t : EReal)) :
    ∃ m' : ℝ, (step S hit s).m = (m' : EReal) ∧
      (step S hit s).l = ((Real.exp (m - m') * l + ∑ j ∈ Finset.range 1024, eN z m' (base + j) : ℝ) : EReal) ∧
      (step S hit s).t = ((t + ∑ j ∈ Finset.range 1024, tN z lab (base + j) : ℝ) : EReal) := by
  obtain ⟨m1, hm1⟩ := fold_max_real Finset.univ S (⟨0, by norm_num⟩ : Fin 1024) (Finset.mem_univ _)
    (by rw [hS]; exact sN_ne_bot z (by simpa using hbase)) (fun j _ => by rw [hS]; exact sN_ne_top z _)
  refine ⟨max m m1, ?_, ?_, ?_⟩
  · show max s.m (Finset.univ.fold max ⊥ S) = _
    rw [hm, hm1, coe_max']
  · show Ideal.exp (s.m - max s.m (Finset.univ.fold max ⊥ S)) * s.l
        + ∑ j : Fin 1024, Ideal.exp (S j - max s.m (Finset.univ.fold max ⊥ S)) = _
    rw [hm, hm1, coe_max', hl, ← EReal.coe_sub, Ideal.exp_coe, ← EReal.coe_mul]
    have h : ∀ j : Fin 1024, Ideal.exp (S j - ((max m m1 : ℝ) : EReal))
        = ((eN z (max m m1) (base + j.val) : ℝ) : EReal) := fun j => by rw [hS, exp_sN_sub]
    rw [Finset.sum_congr rfl (fun j _ => h j), coe_sum, ← EReal.coe_add, Finset.sum_range]
  · show s.t + ∑ j : Fin 1024, (if hit j = true then S j else 0) = _
    have h : ∀ j : Fin 1024, (if hit j = true then S j else 0) = ((tN z lab (base + j.val) : ℝ) : EReal) :=
      fun j => by rw [hS, hhit, hit_term z lab _ hlab]
    rw [ht, Finset.sum_congr rfl (fun j _ => h j), coe_sum, ← EReal.coe_add, Finset.sum_range]

/-- The first tile, folded into (-∞, 0, 0). -/
theorem step_init (S : Fin 1024 → EReal) (hit : Fin 1024 → Bool) (base lab : ℕ) (hbase : base < 50257)
    (hlab : lab < 50257) (hS : ∀ j : Fin 1024, S j = sN z (base + j.val))
    (hhit : ∀ j : Fin 1024, hit j = decide (lab = base + j.val)) :
    ∃ m' : ℝ, (step S hit ⟨⊥, 0, 0⟩).m = (m' : EReal) ∧
      (step S hit ⟨⊥, 0, 0⟩).l = ((∑ j ∈ Finset.range 1024, eN z m' (base + j) : ℝ) : EReal) ∧
      (step S hit ⟨⊥, 0, 0⟩).t = ((∑ j ∈ Finset.range 1024, tN z lab (base + j) : ℝ) : EReal) := by
  obtain ⟨m1, hm1⟩ := fold_max_real Finset.univ S (⟨0, by norm_num⟩ : Fin 1024) (Finset.mem_univ _)
    (by rw [hS]; exact sN_ne_bot z (by simpa using hbase)) (fun j _ => by rw [hS]; exact sN_ne_top z _)
  have hmax : max (⊥ : EReal) (Finset.univ.fold max ⊥ S) = (m1 : EReal) := by rw [hm1]; exact max_eq_right bot_le
  refine ⟨m1, ?_, ?_, ?_⟩
  · exact hmax
  · show Ideal.exp ((⊥ : EReal) - max (⊥ : EReal) (Finset.univ.fold max ⊥ S)) * 0
        + ∑ j : Fin 1024, Ideal.exp (S j - max (⊥ : EReal) (Finset.univ.fold max ⊥ S)) = _
    rw [hmax, mul_zero, zero_add]
    have h : ∀ j : Fin 1024, Ideal.exp (S j - (m1 : EReal)) = ((eN z m1 (base + j.val) : ℝ) : EReal) :=
      fun j => by rw [hS, exp_sN_sub]
    rw [Finset.sum_congr rfl (fun j _ => h j), coe_sum, Finset.sum_range]
  · show (0 : EReal) + ∑ j : Fin 1024, (if hit j = true then S j else 0) = _
    have h : ∀ j : Fin 1024, (if hit j = true then S j else 0) = ((tN z lab (base + j.val) : ℝ) : EReal) :=
      fun j => by rw [hS, hhit, hit_term z lab _ hlab]
    rw [zero_add, Finset.sum_congr rfl (fun j _ => h j), coe_sum, Finset.sum_range]

end Token

section Token2

variable (z : Fin 50257 → ℝ)

/-- After tiles `0 … v` the running triple is a real shift `m`, the sum of `exp (z c - m)` over the columns seen,
    and the label's logit if its column has been seen. -/
theorem acc_inv (acc : ℕ → Acc) (S : ℕ → Fin 1024 → EReal) (hit : ℕ → Fin 1024 → Bool) (lab : ℕ)
    (hlab : lab < 50257) (hS : ∀ v (j : Fin 1024), S v j = sN z (1024 * v + j.val))
    (hhit : ∀ v, v < 50 → ∀ j : Fin 1024, hit v j = decide (lab = 1024 * v + j.val))
    (h0 : acc 0 = step (S 0) (hit 0) ⟨⊥, 0, 0⟩)
    (hs : ∀ v, acc (v + 1) = step (S (v + 1)) (hit (v + 1)) (acc v)) :
    ∀ v, v < 50 → ∃ m : ℝ, (acc v).m = (m : EReal) ∧
      (acc v).l = ((∑ n ∈ Finset.range (1024 * (v + 1)), eN z m n : ℝ) : EReal) ∧
      (acc v).t = ((∑ n ∈ Finset.range (1024 * (v + 1)), tN z lab n : ℝ) : EReal) := by
  intro v
  induction v with
  | zero =>
    intro _
    obtain ⟨m', h1, h2, h3⟩ := step_init z (S 0) (hit 0) (1024 * 0) lab (by omega) hlab (hS 0) (hhit 0 (by omega))
    refine ⟨m', ?_, ?_, ?_⟩
    · rw [h0]; exact h1
    · rw [h0, h2]; simp only [Nat.mul_zero, Nat.zero_add, Nat.mul_one]
    · rw [h0, h3]; simp only [Nat.mul_zero, Nat.zero_add, Nat.mul_one]
  | succ v ih =>
    intro hv
    obtain ⟨m, im, il, it⟩ := ih (by omega)
    obtain ⟨m', h1, h2, h3⟩ := step_real z (S (v + 1)) (hit (v + 1)) (1024 * (v + 1)) lab (by omega) hlab
      (hS (v + 1)) (hhit (v + 1) hv) (acc v) m _ _ im il it
    have hK : 1024 * (v + 1 + 1) = 1024 * (v + 1) + 1024 := by ring
    refine ⟨m', ?_, ?_, ?_⟩
    · rw [hs]; exact h1
    · rw [hs, h2, hK, Finset.sum_range_add, rescale]
    · rw [hs, h3, hK, Finset.sum_range_add]

/-- Over all 51200 columns the exponentials are those of the 50257 words. -/
theorem sum_eN_full (m : ℝ) : ∑ n ∈ Finset.range 51200, eN z m n = ∑ c : Fin 50257, Real.exp (z c - m) := by
  have h2 : ∑ x ∈ Finset.range 943, eN z m (50257 + x) = 0 :=
    Finset.sum_eq_zero fun x _ => by unfold eN; rw [dif_neg (by omega)]
  rw [show (51200 : ℕ) = 50257 + 943 from rfl, Finset.sum_range_add, h2, add_zero, Finset.sum_range]
  exact Finset.sum_congr rfl fun c _ => by unfold eN; rw [dif_pos c.isLt]

/-- Over all 51200 columns the target sum is the label's logit. -/
theorem sum_tN_full (lab : ℕ) (hlab : lab < 50257) : ∑ n ∈ Finset.range 51200, tN z lab n = z ⟨lab, hlab⟩ := by
  have h2 : ∑ x ∈ Finset.range 943, tN z lab (50257 + x) = 0 :=
    Finset.sum_eq_zero fun x _ => by unfold tN; rw [dif_neg (by omega)]
  rw [show (51200 : ℕ) = 50257 + 943 from rfl, Finset.sum_range_add, h2, add_zero, Finset.sum_range,
    Finset.sum_eq_single (⟨lab, hlab⟩ : Fin 50257)]
  · unfold tN; rw [dif_pos hlab, if_pos rfl]
  · intro c _ hc
    unfold tN
    rw [dif_pos c.isLt, if_neg]
    intro h
    exact hc (Fin.ext h.symm)
  · intro h; exact absurd (Finset.mem_univ _) h

theorem sum_exp_pos (m : ℝ) : 0 < ∑ c : Fin 50257, Real.exp (z c - m) :=
  Finset.sum_pos (fun c _ => Real.exp_pos _) ⟨⟨0, by norm_num⟩, Finset.mem_univ _⟩

/-- `m + log ∑ exp (z c - m)` does not depend on the shift `m`. -/
theorem lse_shift (m M : ℝ) :
    m + Real.log (∑ c : Fin 50257, Real.exp (z c - m)) = M + Real.log (∑ c : Fin 50257, Real.exp (z c - M)) := by
  have h : ∑ c : Fin 50257, Real.exp (z c - m) = Real.exp (M - m) * ∑ c : Fin 50257, Real.exp (z c - M) := by
    rw [Finset.mul_sum]
    exact Finset.sum_congr rfl fun c _ => by rw [← Real.exp_add]; congr 1; ring
  rw [h, Real.log_mul (Real.exp_ne_zero _) (sum_exp_pos z M).ne', Real.log_exp]
  ring

/-- The logarithm of a positive real number, taken in the extended reals. -/
theorem log_coe_pos {r : ℝ} (h : 0 < r) : Ideal.log (r : EReal) = ((Real.log r : ℝ) : EReal) := by
  rw [Ideal.log_coe, if_neg (not_le.mpr h)]

end Token2

/-- A 32-bit word equals the word of a number below `2 ^ 32` exactly when its value is that number. -/
theorem bv_eq_ofNat_iff (w : BitVec 32) (n : ℕ) (hn : n < 2 ^ 32) : w = BitVec.ofNat 32 n ↔ w.toNat = n := by
  constructor
  · intro h; rw [h, BitVec.toNat_ofNat, Nat.mod_eq_of_lt hn]
  · intro h; apply BitVec.eq_of_toNat_eq; rw [BitVec.toNat_ofNat, Nat.mod_eq_of_lt hn]; exact h

section Connect

variable (X : SX.Idx → EReal) (E : SE.Idx → EReal) (B : SB.Idx → EReal) (Lb : SL.Idx → BitVec 32)

/-- With finite inputs every logit of a token is a real number. -/
theorem logit_real (hX : ∀ i, X i ≠ ⊤ ∧ X i ≠ ⊥) (hE : ∀ i, E i ≠ ⊤ ∧ E i ≠ ⊥) (hB : ∀ i, B i ≠ ⊤ ∧ B i ≠ ⊥)
    (a : Fin 2) (p : Fin 2048) : ∃ z : Fin 50257 → ℝ, ∀ c, logit X E B a p c = ((z c : ℝ) : EReal) := by
  refine ⟨fun c => (∑ k : Fin 1024, (X (ix3 a p k)).toReal * (E (ix2 c k)).toReal) + (B (ix1 c)).toReal, fun c => ?_⟩
  beta_reduce
  unfold logit
  rw [EReal.coe_add, ← coe_sum, EReal.coe_toReal (hB _).1 (hB _).2]
  congr 1
  refine Finset.sum_congr rfl fun k _ => ?_
  rw [EReal.coe_mul, EReal.coe_toReal (hX _).1 (hX _).2, EReal.coe_toReal (hE _).1 (hE _).2]

variable {X E B} (a : Fin 2) (p : Fin 2048) (z : Fin 50257 → ℝ) (hz : ∀ c, logit X E B a p c = ((z c : ℝ) : EReal))
include hz

theorem score_eq (n : ℕ) : score X E B a p n = sN z n := by
  unfold score sN
  by_cases h : n < 50257
  · rw [dif_pos h, dif_pos h, hz]
  · rw [dif_neg h, dif_neg h]

/-- The running triple of the token after tiles `0 … v`. -/
theorem accAt_inv (hlab : (Lb (ix2 a p)).toNat < 50257) :
    ∀ v, v < 50 → ∃ m : ℝ, (accAt X E B Lb a p v).m = (m : EReal) ∧
      (accAt X E B Lb a p v).l = ((∑ n ∈ Finset.range (1024 * (v + 1)), eN z m n : ℝ) : EReal) ∧
      (accAt X E B Lb a p v).t
        = ((∑ n ∈ Finset.range (1024 * (v + 1)), tN z (Lb (ix2 a p)).toNat n : ℝ) : EReal) :=
  acc_inv z (accAt X E B Lb a p) (tile X E B a p) (hits Lb a p) _ hlab
    (fun v j => score_eq a p z hz _)
    (fun v hv j => by
      unfold hits
      rw [decide_eq_decide, bv_eq_ofNat_iff _ _ (by have := j.isLt; omega)])
    rfl (fun _ => rfl)

/-- The whole-vocabulary maximum is a real number. -/
theorem refMax_real : ∃ M : ℝ, refMax X E B a p = (M : EReal) := by
  obtain ⟨M, hM⟩ := fold_max_real Finset.univ (fun c : Fin 50257 => logit X E B a p c) (⟨0, by norm_num⟩ : Fin 50257)
    (Finset.mem_univ _) (by beta_reduce; rw [hz]; exact EReal.coe_ne_bot _)
    (fun c _ => by beta_reduce; rw [hz]; exact EReal.coe_ne_top _)
  exact ⟨M, by unfold refMax; rw [hM]; exact max_eq_right bot_le⟩

/-- The tiled side's token loss and the reference's log-probability of the label are opposite real numbers. -/
theorem token (hlab : (Lb (ix2 a p)).toNat < 50257) :
    ∃ r : ℝ, rowLoss X E B Lb a p = (r : EReal) ∧ logp X E B a p (labIdx Lb a p) = ((-r : ℝ) : EReal) := by
  obtain ⟨m, hm, hl, ht⟩ := accAt_inv Lb a p z hz hlab 49 (by norm_num)
  rw [show 1024 * (49 + 1) = 51200 from rfl, sum_eN_full] at hl
  rw [show 1024 * (49 + 1) = 51200 from rfl, sum_tN_full z _ hlab] at ht
  obtain ⟨M, hM⟩ := refMax_real a p z hz
  have hsh : ∀ c, shifted X E B a p c = ((z c - M : ℝ) : EReal) := fun c => by
    unfold shifted; rw [hz, hM, ← EReal.coe_sub]
  have hlabIdx : labIdx Lb a p = ⟨(Lb (ix2 a p)).toNat, hlab⟩ := Fin.ext (Nat.mod_eq_of_lt hlab)
  refine ⟨m + Real.log (∑ c : Fin 50257, Real.exp (z c - m)) - z ⟨(Lb (ix2 a p)).toNat, hlab⟩, ?_, ?_⟩
  · unfold rowLoss
    rw [hm, hl, ht, log_coe_pos (sum_exp_pos z m), ← EReal.coe_add, ← EReal.coe_sub]
  · unfold logp
    have he : ∀ c', Ideal.exp (shifted X E B a p c') = ((Real.exp (z c' - M) : ℝ) : EReal) := fun c' => by
      rw [hsh, Ideal.exp_coe]
    rw [zero_add, Finset.sum_congr rfl (fun c' _ => he c'), coe_sum, log_coe_pos (sum_exp_pos z M), hsh,
      ← EReal.coe_sub, hlabIdx, EReal.coe_eq_coe_iff, lse_shift z m M]
    ring

end Connect

/-- Row `r` of the flattened column is token `(r / 2048, r % 2048)`: a bijection onto the pairs. -/
def rowEquiv : SRows.Idx ≃ Fin 2 × Fin 2048 where
  toFun i := (⟨(i 0).val / 2048, by have := idx2_lt0 i; omega⟩, ⟨(i 0).val % 2048, Nat.mod_lt _ (by decide)⟩)
  invFun q := ix2 (⟨2048 * q.1.val + q.2.val, by have := q.1.isLt; have := q.2.isLt; omega⟩ : Fin 4096)
    (⟨0, by norm_num⟩ : Fin 1)
  left_inv i := by
    funext d
    match d with
    | ⟨0, _⟩ => exact Fin.ext (by show 2048 * ((i 0).val / 2048) + (i 0).val % 2048 = (i 0).val; omega)
    | ⟨1, _⟩ => exact Fin.ext (by have := idx2_lt1 i; show 0 = (i 1).val; omega)
  right_inv q := by
    have h1 := q.1.isLt
    have h2 := q.2.isLt
    refine Prod.ext (Fin.ext ?_) (Fin.ext ?_)
    · show (2048 * q.1.val + q.2.val) / 2048 = q.1.val; omega
    · show (2048 * q.1.val + q.2.val) % 2048 = q.2.val; omega

/-- A per-token index `(a, p, 0)` is the pair `(a, p)`. -/
def tokEquiv : STok.Idx ≃ Fin 2 × Fin 2048 where
  toFun i := (i 0, i 1)
  invFun q := ix3 q.1 q.2 (⟨0, by norm_num⟩ : Fin 1)
  left_inv i := by
    funext d
    match d with
    | ⟨0, _⟩ => rfl
    | ⟨1, _⟩ => rfl
    | ⟨2, _⟩ => exact Fin.ext (by have h : (i 2).val < 1 := (i 2).isLt; show 0 = (i 2).val; omega)
  right_inv _ := rfl

section Results

variable (X : SX.Idx → EReal) (E : SE.Idx → EReal) (B : SB.Idx → EReal) (Lb : SL.Idx → BitVec 32)

/-- The mean of real token losses. -/
theorem kernelResult_real (r : Fin 2 → Fin 2048 → ℝ) (hr : ∀ a p, rowLoss X E B Lb a p = ((r a p : ℝ) : EReal)) :
    kernelResult X E B Lb = (((∑ q : Fin 2 × Fin 2048, r q.1 q.2) * (1 / 4096) : ℝ) : EReal) := by
  have hs : ∑ i : SRows.Idx,
      rowLoss X E B Lb ⟨(i 0).val / 2048, by have := idx2_lt0 i; omega⟩ ⟨(i 0).val % 2048, Nat.mod_lt _ (by decide)⟩
        = ((∑ q : Fin 2 × Fin 2048, r q.1 q.2 : ℝ) : EReal) := by
    rw [← coe_sum]
    exact Fintype.sum_equiv rowEquiv _ _ (fun i => hr _ _)
  unfold kernelResult
  rw [hs, zero_add, Ideal.div_coe (by norm_num), ← EReal.coe_mul]

/-- Minus the mean of real log-probabilities. -/
theorem refResult_real (r : Fin 2 → Fin 2048 → ℝ)
    (hr : ∀ a p, logp X E B a p (labIdx Lb a p) = ((r a p : ℝ) : EReal)) :
    refResult X E B Lb = ((-((∑ q : Fin 2 × Fin 2048, r q.1 q.2) * (1 / 4096)) : ℝ) : EReal) := by
  have hs : ∑ i : STok.Idx, logp X E B (i 0) (i 1) (labIdx Lb (i 0) (i 1))
      = ((∑ q : Fin 2 × Fin 2048, r q.1 q.2 : ℝ) : EReal) := by
    rw [← coe_sum]
    exact Fintype.sum_equiv tokEquiv _ _ (fun i => hr _ _)
  unfold refResult
  rw [hs, zero_add, Ideal.div_coe (by norm_num), ← EReal.coe_mul, ← EReal.coe_neg]

end Results

/-- With finite inputs and every label one of the 50257 words, the two sides agree. -/
theorem kernel_eq_ref (X : SX.Idx → EReal) (E : SE.Idx → EReal) (B : SB.Idx → EReal) (Lb : SL.Idx → BitVec 32)
    (hX : ∀ i, X i ≠ ⊤ ∧ X i ≠ ⊥) (hE : ∀ i, E i ≠ ⊤ ∧ E i ≠ ⊥) (hB : ∀ i, B i ≠ ⊤ ∧ B i ≠ ⊥)
    (hL : ∀ i, (Lb i).toNat < 50257) :
    kernelResult X E B Lb = refResult X E B Lb := by
  have htok : ∀ (a : Fin 2) (p : Fin 2048), ∃ r : ℝ,
      rowLoss X E B Lb a p = (r : EReal) ∧ logp X E B a p (labIdx Lb a p) = ((-r : ℝ) : EReal) := fun a p => by
    obtain ⟨z, hz⟩ := logit_real X E B hX hE hB a p
    exact token Lb a p z hz (hL _)
  choose r hr1 hr2 using htok
  rw [kernelResult_real X E B Lb r hr1, refResult_real X E B Lb (fun a p => -r a p) hr2, Finset.sum_neg_distrib,
    EReal.coe_eq_coe_iff]
  ring

end Cert.Spec

end
-- ==== Proof.KFinal.lean ====
/-
  The tiled kernel's result. The per-token column [4096, 1] is written back twice, at the last vocabulary tile of each
  batch row: rows 2048 a … 2048 a + 2047 then hold the losses of tokens (a, 0) … (a, 2047). The two blocks cover the
  column, so after the call it holds every token's loss, and the host's sum over it divided by 4096 is the mean.
-/
import proofs.«416658_j55568286876202_3_alg».proof.Proof.Gen.KernelIdeal.Frame
import proofs.«416658_j55568286876202_3_alg».proof.Proof.KInvariant
import proofs.«416658_j55568286876202_3_alg».proof.Proof.SpecLaw
import Idealize.ShloMosaic.Lib.Pipeline.Value
import Idealize.ShloMosaic.Lib.StableHlo.Run
import Idealize.ShloMosaic.PureOps.Ideal.Laws

set_option maxRecDepth 16384

noncomputable section

namespace Cert.KernelIdeal.Final

open Cert.KernelIdeal Cert.KernelIdeal.Gen Cert.KernelIdeal.Blocks Cert.KernelIdeal.Invariant
open Idealize.ShloMosaic Idealize.ShloMosaic.TcCoe Idealize.ShloMosaic.ValueIdx Idealize.SL.Sem

variable (m : (ℓ : Loc nD τ sig) → Buf (Elt Ideal) ℓ) (ρ : Dev nD → PrngReg)

/-- The column of token losses: row `r` is token `(r / 2048, r % 2048)`. -/
def losses (c : Dev nD) : S4096x1.Idx → EReal := fun i =>
  Cert.Spec.rowLoss (argX m c) (argE m c) (argB m c) (argL m c)
    ⟨(i 0).val / 2048, by have := idx2_lt0 i; omega⟩ ⟨(i 0).val % 2048, Nat.mod_lt _ (by decide)⟩

/-- The output window's block index at point `t`: the batch row, and column block 0. -/
theorem idx_out : ∀ t : Fin cfg0.N, win0_4.index t (0 : Fin 2) = t.val / 50 ∧ win0_4.index t (1 : Fin 2) = 0 :=
  (by decide +kernel : ∀ t : Fin grid0.N, _)

/-- At the last tile of batch row `t / 50`, row `y` of the output block is the loss the column of losses has at the
    block's row `y`: row `2048 (t / 50) + y` of the column is token `(t / 50, y)`. -/
theorem row_eq (c : Dev nD) (t : Fin cfg0.N) (h1 : t.val % 50 = 49) (y : S2048x1.Idx) :
    (outsAt0 m c t.val t.isLt).1 y = losses m c (((cfg0.win 4).blk t).view.emb y) := by
  obtain ⟨p, q, rfl⟩ : ∃ (p : Fin 2048) (q : Fin 1), y = ix2 p q := ⟨y 0, y 1, eq_ix2 y⟩
  obtain rfl : q = 0 := Fin.ext (by omega)
  rw [out_last m c t h1 p]
  have hp : p.val < 2048 := p.isLt
  have he : ((((cfg0.win 4).blk t).view.emb (ix2 p (0 : Fin 1))) 0).val = 2048 * (t.val / 50) + p.val := by
    show win0_4.index t (0 : Fin 2) * 2048 + 1 * p.val = _
    rw [(idx_out t).1]; omega
  unfold losses
  congr 1
  · exact Fin.ext (by show t.val / 50 = _ / 2048; rw [he]; omega)
  · exact Fin.ext (by show p.val = _ % 2048; rw [he]; omega)

/-- What a write-back point writes back is its block of the column of losses. -/
theorem flushed_eq (c : Dev nD) (t : Fin cfg0.N) (hf : (cfg0.win 4).flush t = true) :
    (dats m 0 c).flushed 4 t = ((cfg0.win 4).blk t).view.read (Elt Ideal) (losses m c) := by
  have h1 : t.val % 50 = 49 := (flush0_4 t).mp hf
  show (cfg0.win 4).cut (grid0.coords t) ((dats m 0 c).after 4 t) = _
  rw [after0_4]
  funext j
  exact row_eq m c t h1 j

/-- Every row of the column lies in the block written back at the last tile of its batch row. -/
theorem cover (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 100 := N_0
  have ht : 50 * ((i 0).val / 2048) + 49 < cfg0.N := by rw [hN]; omega
  refine ⟨⟨50 * ((i 0).val / 2048) + 49, ht⟩, (flush0_4 _).mpr (by show (50 * ((i 0).val / 2048) + 49) % 50 = 49; omega), ?_⟩
  show i ∈ ((View.whole main_v8).slice (win0_4.rect ⟨50 * ((i 0).val / 2048) + 49, ht⟩)).set
  rw [View.set_slice_whole, Rect.mem_set_unit]
  obtain ⟨e0, e1⟩ := idx_out ⟨50 * ((i 0).val / 2048) + 49, ht⟩
  have e0' : win0_4.index ⟨50 * ((i 0).val / 2048) + 49, ht⟩ (0 : Fin 2) = (i 0).val / 2048 := by
    rw [e0]; show (50 * ((i 0).val / 2048) + 49) / 50 = _; omega
  intro a
  match a with
  | ⟨0, _⟩ =>
    show win0_4.index ⟨50 * ((i 0).val / 2048) + 49, ht⟩ (0 : Fin 2) * 2048 ≤ (i 0).val
      ∧ (i 0).val < win0_4.index ⟨50 * ((i 0).val / 2048) + 49, ht⟩ (0 : Fin 2) * 2048 + 2048
    rw [e0']; omega
  | ⟨1, _⟩ =>
    show win0_4.index ⟨50 * ((i 0).val / 2048) + 49, ht⟩ (1 : Fin 2) * 1 ≤ (i 1).val
      ∧ (i 1).val < win0_4.index ⟨50 * ((i 0).val / 2048) + 49, ht⟩ (1 : Fin 2) * 1 + 1
    rw [e1]; omega

/-- After the call the per-token column holds every token's loss. -/
theorem final (c : Dev nD) : (dats m 0 c).arrAt 4 cfg0.N = losses m c :=
  (dats m 0 c).arrAt_eq_of_cover 4 (losses m c) (flushed_eq m c) (cover)

/-- The host lines after the call: the column's sum from 0, divided by 4096. -/
theorem tail_eq (c : Dev nD) :
    Pipeline.afterTail₀ cfgs (dats m) 0 (V0 m) [hostOps1] c main_v10
      = fun _ => Cert.Spec.kernelResult (argX m c) (argE m c) (argB m c) (argL m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v8)
      = losses m c :=
    (Pipeline.withArrays_arr spec0 launch0.win.arr_inj c _ _ 4).trans (final m c)
  rw [hw]
  funext i0
  show Ideal.div (Host.reduceAdd (F := Ideal) (losses m c) (constant (F := Ideal) S_ .f32 0x00000000#32) reducesTo_S4096x1_S_d0_1 h_S_ i0)
    (Ideal.ofBits .f32 0x45800000#32) = _
  unfold Host.reduceAdd
  refine (congrArg (fun s => Ideal.div s (Ideal.ofBits .f32 0x45800000#32))
    (Ideal.hostReduceAdd_total reducesTo_S4096x1_S_d0_1 (fun b => b.elim0) (losses m c)
      (Ideal.ofBits .f32 0x00000000#32) i0)).trans ?_
  show Ideal.div (Ideal.ofBits .f32 0x00000000#32 + ∑ i : S4096x1.Idx, losses m c i) (Ideal.ofBits .f32 0x45800000#32) = _
  rw [Ideal.ofBits_zero_f32, Cert.Spec.ofBits_4096]
  rfl

/-- THE KERNEL'S RUN, read: every weakly fair execution of the tiled program terminates with its result at the mean of
    the token losses as the tiles compute them, and the four arguments unchanged. -/
theorem run : θ_run defs (onTc (τ := τ) (main (F := Ideal))) ⟨m, fun _ => 0, ρ⟩ (fun r => ∀ c : Dev nD,
      r.2.mem ((c.tc : Thread nD τ).loc main_v10) = (fun _ => Cert.Spec.kernelResult (argX m c) (argE m c) (argB m c) (argL m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefStage.lean ====
/-
  The reference's run, read in seven stretches of its operation list: the logits (operations 1–4), the row maximum
  (5–9), the shifted logits (10–12), the sum of their exponentials (13–15), the log-probabilities (16–19), the label
  index (20–28), and the pick at the label with the mean and its sign (29–47). Each stretch is run from an arbitrary
  valuation of the buffers: what the earlier stretches left enters as a hypothesis about the buffers the stretch reads,
  so no stretch's value is ever written out inside another's. A buffer a stretch does not write keeps its contents.
-/
import proofs.«416658_j55568286876202_3_alg».proof.Proof.RefRead
import Idealize.ShloMosaic.Lib.Pipeline.Frame

noncomputable section

namespace Cert.ReferenceIdeal.RefStage

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The seven stretches of the operation list. -/
abbrev ops1 : List (HloOp τ sig (Elt F)) := (ops (F := F)).take 4
abbrev ops2a : List (HloOp τ sig (Elt F)) := ((ops (F := F)).drop 4).take 5
abbrev ops2b : List (HloOp τ sig (Elt F)) := ((ops (F := F)).drop 9).take 3
abbrev ops2c : List (HloOp τ sig (Elt F)) := ((ops (F := F)).drop 12).take 3
abbrev ops2d : List (HloOp τ sig (Elt F)) := ((ops (F := F)).drop 15).take 4
abbrev ops3 : List (HloOp τ sig (Elt F)) := ((ops (F := F)).drop 19).take 9
abbrev ops4 : List (HloOp τ sig (Elt F)) := (ops (F := F)).drop 28

theorem ops_cut : ops (F := F) = ops1 ++ (ops2a ++ (ops2b ++ (ops2c ++ (ops2d ++ (ops3 ++ ops4))))) := rfl

/-! ## The logits -/

set_option maxRecDepth 8192 in
theorem stage1 (W : Valuation τ sig (Elt F)) :
    after (ops1 (F := F)) W (Proc.devRef .tc main_v3)
      = val_main_v3 (F := F) (W (Proc.devRef .tc main_arg0)) (W (Proc.devRef .tc main_arg1)) (W (Proc.devRef .tc main_arg2)) := by
  simp only [val_main_v3, val_main_v2, val_main_v1, val_main_v0]
  simp only [ops1, ops, List.take_succ_cons, List.take_zero]
  after_results_simp
  try simp only [TRef.ofBuf, TRef.toBuf, cast_eq]
  try rfl

set_option maxRecDepth 8192 in
theorem keep1_arg3 (W : Valuation τ sig (Elt F)) :
    after (ops1 (F := F)) W (Proc.devRef .tc main_arg3) = W (Proc.devRef .tc main_arg3) := by
  simp only [ops1, ops, List.take_succ_cons, List.take_zero]
  after_results_simp
  try rfl

/-! ## The row maximum -/

/-- Reading back through a typed reference what was written through it gives the value. -/
theorem ofBuf_toBuf {Val : EltTy → Type} {T : BufTy} (x : TRef sig T) (v : T.Contents Val) : x.ofBuf (x.toBuf v) = v := by
  obtain ⟨r, rfl, _, _⟩ := x
  rfl

/-- The logits buffer read through its typed reference is its contents. -/
theorem in_v3 (W : Valuation τ sig (Elt F)) :
    (TRef.of (T := ⟨S2x2048x50257, .f32⟩) main_v3).ofBuf (W (Proc.devRef .tc main_v3)) = W (Proc.devRef .tc main_v3) := rfl

/-- A value written through the row maximum's typed reference is the value. -/
theorem out_call0_v2 (v : (⟨S2x2048, .f32⟩ : BufTy).Contents (Elt F)) :
    (TRef.of (T := ⟨S2x2048, .f32⟩) main_call0_v2).toBuf v = v := rfl

set_option maxRecDepth 8192 in
theorem stage2a (W : Valuation τ sig (Elt F))
    (x0 : (⟨S2x2048x1024, .f32⟩ : BufTy).Contents (Elt F)) (x1 : (⟨S50257x1024, .f32⟩ : BufTy).Contents (Elt F))
    (x2 : (⟨S50257, .f32⟩ : BufTy).Contents (Elt F))
    (h3 : W (Proc.devRef .tc main_v3) = val_main_v3 (F := F) x0 x1 x2) :
    after (ops2a (F := F)) W (Proc.devRef .tc main_call0_v2) = val_main_call0_v2 (F := F) x0 x1 x2 := by
  simp only [val_main_call0_v2, val_main_call0_v1, val_main_call0_cst_0, val_main_call0_v0, val_main_call0_cst]
  rw [← h3]
  simp only [ops2a, ops, List.take_succ_cons, List.take_zero, List.drop_succ_cons, List.drop_zero]
  after_results_simp
  simp only [ofBuf_toBuf, in_v3]
  exact out_call0_v2 _

set_option maxRecDepth 8192 in
theorem keep2a_v3 (W : Valuation τ sig (Elt F)) :
    after (ops2a (F := F)) W (Proc.devRef .tc main_v3) = W (Proc.devRef .tc main_v3) := by
  simp only [ops2a, ops, List.take_succ_cons, List.take_zero, List.drop_succ_cons, List.drop_zero]
  after_results_simp
  try rfl

set_option maxRecDepth 8192 in
theorem keep2a_arg3 (W : Valuation τ sig (Elt F)) :
    after (ops2a (F := F)) W (Proc.devRef .tc main_arg3) = W (Proc.devRef .tc main_arg3) := by
  simp only [ops2a, ops, List.take_succ_cons, List.take_zero, List.drop_succ_cons, List.drop_zero]
  after_results_simp
  try rfl

/-! ## The shifted logits -/

set_option maxRecDepth 8192 in
theorem stage2b (W : Valuation τ sig (Elt F))
    (x0 : (⟨S2x2048x1024, .f32⟩ : BufTy).Contents (Elt F)) (x1 : (⟨S50257x1024, .f32⟩ : BufTy).Contents (Elt F))
    (x2 : (⟨S50257, .f32⟩ : BufTy).Contents (Elt F))
    (h3 : W (Proc.devRef .tc main_v3) = val_main_v3 (F := F) x0 x1 x2)
    (h2 : W (Proc.devRef .tc main_call0_v2) = val_main_call0_v2 (F := F) x0 x1 x2) :
    after (ops2b (F := F)) W (Proc.devRef .tc main_call0_v5) = val_main_call0_v5 (F := F) x0 x1 x2 := by
  simp only [val_main_call0_v5, val_main_call0_v4, val_main_call0_v3]
  rw [← h3, ← h2]
  simp only [ops2b, ops, List.take_succ_cons, List.take_zero, List.drop_succ_cons, List.drop_zero]
  after_results_simp
  try simp only [TRef.ofBuf, TRef.toBuf, cast_eq]
  try rfl

set_option maxRecDepth 8192 in
theorem keep2b_arg3 (W : Valuation τ sig (Elt F)) :
    after (ops2b (F := F)) W (Proc.devRef .tc main_arg3) = W (Proc.devRef .tc main_arg3) := by
  simp only [ops2b, ops, List.take_succ_cons, List.take_zero, List.drop_succ_cons, List.drop_zero]
  after_results_simp
  try rfl

/-! ## The sum of the exponentials -/

set_option maxRecDepth 8192 in
theorem stage2c (W : Valuation τ sig (Elt F))
    (x0 : (⟨S2x2048x1024, .f32⟩ : BufTy).Contents (Elt F)) (x1 : (⟨S50257x1024, .f32⟩ : BufTy).Contents (Elt F))
    (x2 : (⟨S50257, .f32⟩ : BufTy).Contents (Elt F))
    (h5 : W (Proc.devRef .tc main_call0_v5) = val_main_call0_v5 (F := F) x0 x1 x2) :
    after (ops2c (F := F)) W (Proc.devRef .tc main_call0_v7) = val_main_call0_v7 (F := F) x0 x1 x2 := by
  simp only [val_main_call0_v7, val_main_call0_cst_1, val_main_call0_v6]
  rw [← h5]
  simp only [ops2c, ops, List.take_succ_cons, List.take_zero, List.drop_succ_cons, List.drop_zero]
  after_results_simp
  try simp only [TRef.ofBuf, TRef.toBuf, cast_eq]
  try rfl

set_option maxRecDepth 8192 in
theorem keep2c_v5 (W : Valuation τ sig (Elt F)) :
    after (ops2c (F := F)) W (Proc.devRef .tc main_call0_v5) = W (Proc.devRef .tc main_call0_v5) := by
  simp only [ops2c, ops, List.take_succ_cons, List.take_zero, List.drop_succ_cons, List.drop_zero]
  after_results_simp
  try rfl

set_option maxRecDepth 8192 in
theorem keep2c_arg3 (W : Valuation τ sig (Elt F)) :
    after (ops2c (F := F)) W (Proc.devRef .tc main_arg3) = W (Proc.devRef .tc main_arg3) := by
  simp only [ops2c, ops, List.take_succ_cons, List.take_zero, List.drop_succ_cons, List.drop_zero]
  after_results_simp
  try rfl

/-! ## The log-probabilities -/

set_option maxRecDepth 8192 in
theorem stage2d (W : Valuation τ sig (Elt F))
    (x0 : (⟨S2x2048x1024, .f32⟩ : BufTy).Contents (Elt F)) (x1 : (⟨S50257x1024, .f32⟩ : BufTy).Contents (Elt F))
    (x2 : (⟨S50257, .f32⟩ : BufTy).Contents (Elt F))
    (h5 : W (Proc.devRef .tc main_call0_v5) = val_main_call0_v5 (F := F) x0 x1 x2)
    (h7 : W (Proc.devRef .tc main_call0_v7) = val_main_call0_v7 (F := F) x0 x1 x2) :
    after (ops2d (F := F)) W (Proc.devRef .tc main_v4) = val_main_v4 (F := F) x0 x1 x2 := by
  simp only [val_main_v4, val_main_call0_v10, val_main_call0_v9, val_main_call0_v8]
  rw [← h5, ← h7]
  simp only [ops2d, ops, List.take_succ_cons, List.take_zero, List.drop_succ_cons, List.drop_zero]
  after_results_simp
  try simp only [TRef.ofBuf, TRef.toBuf, cast_eq]
  try rfl

set_option maxRecDepth 8192 in
theorem keep2d_arg3 (W : Valuation τ sig (Elt F)) :
    after (ops2d (F := F)) W (Proc.devRef .tc main_arg3) = W (Proc.devRef .tc main_arg3) := by
  simp only [ops2d, ops, List.take_succ_cons, List.take_zero, List.drop_succ_cons, List.drop_zero]
  after_results_simp
  try rfl

/-! ## The label index -/

set_option maxRecDepth 8192 in
theorem stage3 (W : Valuation τ sig (Elt F)) (x3 : (⟨S2x2048, .i32⟩ : BufTy).Contents (Elt F))
    (h : W (Proc.devRef .tc main_arg3) = x3) :
    after (ops3 (F := F)) W (Proc.devRef .tc main_call1_v5) = val_main_call1_v5 (F := F) x3 := by
  simp only [val_main_call1_v5, val_main_call1_v4, val_main_call1_v3, val_main_call1_v2, val_main_call1_c_0, val_main_call1_v1, val_main_call1_v0, val_main_call1_c, val_main_v5]
  rw [← h]
  simp only [ops3, ops, List.take_succ_cons, List.take_zero, List.drop_succ_cons, List.drop_zero]
  after_results_simp
  try simp only [TRef.ofBuf, TRef.toBuf, cast_eq]
  try rfl

set_option maxRecDepth 8192 in
theorem keep3_v4 (W : Valuation τ sig (Elt F)) :
    after (ops3 (F := F)) W (Proc.devRef .tc main_v4) = W (Proc.devRef .tc main_v4) := by
  simp only [ops3, ops, List.take_succ_cons, List.take_zero, List.drop_succ_cons, List.drop_zero]
  after_results_simp
  try rfl

/-! ## The pick at the label, the mean and the sign -/

set_option maxRecDepth 8192 in
theorem stage4 (W : Valuation τ sig (Elt F))
    (x0 : (⟨S2x2048x1024, .f32⟩ : BufTy).Contents (Elt F)) (x1 : (⟨S50257x1024, .f32⟩ : BufTy).Contents (Elt F))
    (x2 : (⟨S50257, .f32⟩ : BufTy).Contents (Elt F)) (x3 : (⟨S2x2048, .i32⟩ : BufTy).Contents (Elt F))
    (h4 : W (Proc.devRef .tc main_v4) = val_main_v4 (F := F) x0 x1 x2)
    (h5 : W (Proc.devRef .tc main_call1_v5) = val_main_call1_v5 (F := F) x3) :
    after (ops4 (F := F)) W (Proc.devRef .tc main_v9) = val_main_v9 (F := F) x0 x1 x2 x3 := by
  simp only [val_main_v9, val_main_v8, val_main_cst_0, val_main_v7, val_main_cst, val_main_v6, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1]
  rw [← h4, ← h5]
  simp only [ops4, ops, List.drop_succ_cons, List.drop_zero]
  after_results_simp
  try simp only [TRef.ofBuf, TRef.toBuf, cast_eq]
  try rfl

/-! ## The whole line -/

/-- After all 47 operations the result buffer holds the last stage of the four arguments. -/
theorem after_main_v9 (m : (ℓ : Loc nD τ sig) → Buf (Elt F) ℓ) (c : Dev nD) :
    after (ops (F := F)) (launchContents m c) (Proc.devRef .tc main_v9)
      = val_main_v9 (F := F) (m ((c.tc : Thread nD τ).loc main_arg0)) (m ((c.tc : Thread nD τ).loc main_arg1))
          (m ((c.tc : Thread nD τ).loc main_arg2)) (m ((c.tc : Thread nD τ).loc main_arg3)) := by
  rw [ops_cut, StableHlo.after_append, StableHlo.after_append, StableHlo.after_append, StableHlo.after_append,
    StableHlo.after_append, StableHlo.after_append]
  have e3 := stage1 (F := F) (launchContents m c)
  have e2 := stage2a _ _ _ _ e3
  have e3' := (keep2a_v3 (after ops1 (launchContents m c))).trans e3
  have e5 := stage2b _ _ _ _ e3' e2
  have e7 := stage2c _ _ _ _ e5
  have e5' := (keep2c_v5 (after ops2b (after ops2a (after ops1 (launchContents m c))))).trans e5
  have e4 := stage2d _ _ _ _ e5' e7
  refine stage4 _ _ _ _ _ ?_ ?_
  · rw [keep3_v4]
    exact e4
  · refine stage3 _ _ ?_
    rw [keep2d_arg3, keep2c_arg3, keep2b_arg3, keep2a_arg3, keep1_arg3]

set_option maxRecDepth 8192 in
/-- On every device, from any memory with zero counters: every weakly fair execution of the reference's @main
    terminates with its result at the last stage of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = val_main_v9 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v9).trans (after_main_v9 m c),
      (h c main_arg0).trans (by after_results_simp <;> rfl),
      (h c main_arg1).trans (by after_results_simp <;> rfl),
      (h c main_arg2).trans (by after_results_simp <;> rfl),
      (h c main_arg3).trans (by after_results_simp <;> rfl)⟩)
    (run_after m ρ)

end Cert.ReferenceIdeal.RefStage

end
-- ==== Proof.RefResult.lean ====
/-
  The reference's scalar, read through its operations: the logits as a contraction plus the bias, the maximum and the
  shifted exponentials' sum along the vocabulary, the log-probability picked at the label, the mean over the tokens and
  its negation are `Spec.refResult` of the four arguments, when every label is one of the 50257 words.
-/
import proofs.«416658_j55568286876202_3_alg».proof.Proof.RefRead
import proofs.«416658_j55568286876202_3_alg».proof.Proof.Spec
import proofs.«416658_j55568286876202_3_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefResult

open Cert.ReferenceIdeal Cert.ReferenceIdeal.Gen Cert.ReferenceIdeal.ReadP
open Idealize.ShloMosaic Idealize.ShloMosaic.ValueIdx

section Stages

variable (X : Cert.Spec.SX.Idx → EReal) (E : Cert.Spec.SE.Idx → EReal) (B : Cert.Spec.SB.Idx → EReal)
  (Lb : Cert.Spec.SL.Idx → BitVec 32)

/-- The word of -∞. -/
theorem ofBits_neg_inf : Ideal.ofBits .f32 0xFF800000#32 = (⊥ : EReal) := by simp [Ideal.ofBits, Ideal.ieee]

/-- The word 4096.0 is the real number 4096. -/
theorem ofBits_4096 : Ideal.ofBits .f32 0x45800000#32 = ((4096 : ℝ) : EReal) := by
  simp [Ideal.ofBits, Ideal.ieee, -EReal.coe_mul]
  norm_num

/-- The contraction over the features plus the bias is the logit of word `c` for token `(a, p)`. -/
theorem logits_eq (a : Fin 2) (p : Fin 2048) (c : Fin 50257) :
    val_main_v3 (F := Ideal) X E B (ix3 a p c) = Cert.Spec.logit X E B a p c := by
  have e1 : ∀ k : Fin 1024, lidx_main_v0 (ix3 a p c) k = ix3 a p k := fun k =>
    funext fun d => Fin.ext (by match d with | ⟨0, _⟩ => rfl | ⟨1, _⟩ => rfl | ⟨2, _⟩ => rfl)
  have e2 : ∀ k : Fin 1024, ridx_main_v0 (ix3 a p c) k = ix2 c k := fun k =>
    funext fun d => Fin.ext (by match d with | ⟨0, _⟩ => rfl | ⟨1, _⟩ => rfl)
  have e3 : idx_main_v1 (idx_main_v2 (ix3 a p c)) = ix1 c :=
    funext fun d => Fin.ext (by match d with | ⟨0, _⟩ => rfl)
  rw [val_main_v3_apply, val_main_v0_apply, val_main_v2_apply, val_main_v1_apply, e3, Ideal.addf_def]
  unfold Cert.Spec.logit
  congr 1
  exact Finset.sum_congr rfl fun k _ => by rw [e1, e2]

end Stages

section Stages2

variable (X : Cert.Spec.SX.Idx → EReal) (E : Cert.Spec.SE.Idx → EReal) (B : Cert.Spec.SB.Idx → EReal)
  (Lb : Cert.Spec.SL.Idx → BitVec 32)

/-- The maximum-reduction along the vocabulary axis, from -∞, is the fold of `max` over the token's logits. -/
theorem rowmax_eq (a : Fin 2) (p : Fin 2048) :
    val_main_call0_v0 (F := Ideal) X E B (ix2 a p)
      = Finset.univ.fold max ⊥ (fun c : Fin 50257 => Cert.Spec.logit X E B a p c) := by
  unfold val_main_call0_v0
  rw [Host.reduce_eq_fold_single FloatOps.maximumf _ _ reducesTo_S2x2048x50257_S2x2048_d2 (by decide) h_S_]
  have hinit : val_main_call0_cst (F := Ideal) (Shape.Idx.first h_S_) = (⊥ : EReal) := ofBits_neg_inf
  have hfun : (val_main_v3 (F := Ideal) X E B ∘ Shape.Reduces.lift (a := (2 : Fin 3)) (s := S2x2048x50257) (t := S2x2048) (by decide) (ix2 a p))
      = fun c : Fin 50257 => Cert.Spec.logit X E B a p c := by
    funext c
    rw [Function.comp_apply]
    refine Eq.trans (congrArg (val_main_v3 (F := Ideal) X E B) (funext fun d => Fin.ext ?_)) (logits_eq X E B a p c)
    match d with
    | ⟨0, _⟩ => rfl
    | ⟨1, _⟩ => rfl
    | ⟨2, _⟩ => rfl
  rw [hinit, hfun]
  rfl

/-- Taken once more against -∞, it is the token's maximum as the specification writes it. -/
theorem refMax_eq (a : Fin 2) (p : Fin 2048) :
    val_main_call0_v2 (F := Ideal) X E B (ix2 a p) = Cert.Spec.refMax X E B a p := by
  rw [val_main_call0_v2_apply, val_main_call0_v1_apply, val_main_call0_cst_0_apply, rowmax_eq, Ideal.maximumf_def,
    Ideal.ofBits_def, ofBits_neg_inf]
  rfl

end Stages2

section Stages3

variable (X : Cert.Spec.SX.Idx → EReal) (E : Cert.Spec.SE.Idx → EReal) (B : Cert.Spec.SB.Idx → EReal)
  (Lb : Cert.Spec.SL.Idx → BitVec 32)

/-- The logits minus the broadcast maximum are the shifted logits. -/
theorem shifted_eq (a : Fin 2) (p : Fin 2048) (c : Fin 50257) :
    val_main_call0_v5 (F := Ideal) X E B (ix3 a p c) = Cert.Spec.shifted X E B a p c := by
  have e : idx_main_call0_v3 (idx_main_call0_v4 (ix3 a p c)) = ix2 a p :=
    funext fun d => Fin.ext (by match d with | ⟨0, _⟩ => rfl | ⟨1, _⟩ => rfl)
  rw [val_main_call0_v5_apply, val_main_call0_v4_apply, val_main_call0_v3_apply, e, logits_eq, refMax_eq,
    Ideal.subf_def]
  rfl

/-- The sum of the exponentials along the vocabulary axis, from zero. -/
theorem sumexp_eq (a : Fin 2) (p : Fin 2048) :
    val_main_call0_v7 (F := Ideal) X E B (ix2 a p)
      = 0 + ∑ c' : Fin 50257, Ideal.exp (Cert.Spec.shifted X E B a p c') := by
  have e : ∀ k : Fin 50257, idx_main_call0_v7 (ix2 a p) k = ix3 a p k := fun k =>
    funext fun d => Fin.ext (by match d with | ⟨0, _⟩ => rfl | ⟨1, _⟩ => rfl | ⟨2, _⟩ => rfl)
  rw [val_main_call0_v7_apply, val_main_call0_cst_1_apply, Ideal.ofBits_def, Ideal.ofBits_zero_f32]
  refine congrArg (fun s : EReal => 0 + s) (Finset.sum_congr rfl fun k _ => ?_)
  rw [e, val_main_call0_v6_apply, shifted_eq, Ideal.hostUnary_exp_def]

/-- The shifted logit minus the logarithm of that sum is the log-probability. -/
theorem logp_eq (a : Fin 2) (p : Fin 2048) (c : Fin 50257) :
    val_main_v4 (F := Ideal) X E B (ix3 a p c) = Cert.Spec.logp X E B a p c := by
  have e : idx_main_call0_v8 (idx_main_call0_v10 (ix3 a p c)) = ix2 a p :=
    funext fun d => Fin.ext (by match d with | ⟨0, _⟩ => rfl | ⟨1, _⟩ => rfl)
  rw [val_main_v4_apply, val_main_call0_v10_apply, val_main_call0_v9_apply, val_main_call0_v8_apply, e, sumexp_eq,
    shifted_eq, Ideal.hostUnary_log_def, Ideal.subf_def]
  rfl

end Stages3

/-- A left fold of `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = (1#1 : BitVec 1) from by decide]
    exact foldl_andi_one x hx l

section Labels

variable (Lb : Cert.Spec.SL.Idx → BitVec 32) (hL : ∀ i, (Lb i).toNat < 50257)
include hL

/-- A label below 50257 reads the same signed and unsigned. -/
theorem toInt_label (q : Cert.Spec.SL.Idx) : (Lb q).toInt = ((Lb q).toNat : Int) :=
  BitVec.toInt_eq_toNat_of_lt (by have := hL q; omega)

/-- A label is not negative, so the index wrapped by 50257 is the label itself. -/
theorem wrapped_eq (j : S2x2048x1.Idx) : val_main_call1_v4 (F := Ideal) Lb j = Lb (idx_main_v5 j) := by
  have h0 : IntOp.cmpi .slt (Lb (idx_main_v5 j)) 0#32 = 0#1 := by
    apply eq_zero_of_ne_one
    rw [IntOp.cmpi_slt, toInt_label Lb hL, show (0#32 : BitVec 32).toInt = 0 from by decide]
    omega
  rw [val_main_call1_v4_apply, val_main_call1_v1_apply, val_main_v5_apply, val_main_call1_v0_apply,
    val_main_call1_c_apply, h0, select_zero]

/-- The start index of the gather is a label. -/
theorem startidx_eq (i : S2x2048x1x1.Idx) :
    val_main_call1_v5 (F := Ideal) Lb i = Lb (idx_main_v5 (idx_main_call1_v5 i)) := by
  rw [val_main_call1_v5_apply, wrapped_eq Lb hL]

/-- Every start index lies in `[0, 50256]`. -/
theorem inrange (i : S2x2048x1x1.Idx) : val_main_call1_v11 (F := Ideal) Lb i = 1#1 := by
  have := hL (idx_main_v5 (idx_main_call1_v5 i))
  rw [val_main_call1_v11_apply, IntOp.andi_eq_one, val_main_call1_v7_apply, val_main_call1_v10_apply,
    startidx_eq Lb hL, val_main_call1_v6_apply, val_main_call1_c_2_apply, val_main_call1_v9_apply,
    val_main_call1_v8_apply, val_main_call1_c_1_apply, IntOp.cmpi_sge, IntOp.cmpi_sle, toInt_label Lb hL,
    show (0#32 : BitVec 32).toInt = 0 from by decide, show (50256#32 : BitVec 32).toInt = 50256 from by decide]
  omega

/-- So the mask of the gather is set everywhere. -/
theorem mask_eq (j : S2x2048x1.Idx) : val_main_call1_v12 (F := Ideal) Lb j = 1#1 := by
  unfold val_main_call1_v12
  rw [Host.reduce_eq_foldl]
  exact foldl_andi_one _ (inrange Lb hL) _

end Labels

section Gather

/-- Result index `(a, p, u)` reads its start index at `(a, p, u, 0)`. -/
theorem g_siIdx (a : Fin 2) (p : Fin 2048) (u : Fin 1) (c : Fin gather_S2x2048x50257_S2x2048x1x1_S2x2048x1_n_2_01_01_2_3_111.startIndexMap.length) :
    gather_S2x2048x50257_S2x2048x1x1_S2x2048x1_n_2_01_01_2_3_111.siIdx (ix3 a p u) c = ix4 a p u (0 : Fin 1) := by
  funext b
  refine Fin.ext ?_
  match b with
  | ⟨0, _⟩ => rfl
  | ⟨1, _⟩ => rfl
  | ⟨2, _⟩ => rfl
  | ⟨3, _⟩ =>
    have hc : c.val < 1 := c.isLt
    show c.val = 0
    omega

theorem g_batch0 (j : S2x2048x1.Idx) : gather_S2x2048x50257_S2x2048x1x1_S2x2048x1_n_2_01_01_2_3_111.batchCoord j 0 = (j 0).val := by
  unfold GatherDims.batchCoord
  rw [dif_pos (by decide)]
  rfl

theorem g_batch1 (j : S2x2048x1.Idx) : gather_S2x2048x50257_S2x2048x1x1_S2x2048x1_n_2_01_01_2_3_111.batchCoord j 1 = (j 1).val := by
  unfold GatherDims.batchCoord
  rw [dif_pos (by decide)]
  rfl

variable (X : Cert.Spec.SX.Idx → EReal) (E : Cert.Spec.SE.Idx → EReal) (B : Cert.Spec.SB.Idx → EReal)
  (Lb : Cert.Spec.SL.Idx → BitVec 32) (hL : ∀ i, (Lb i).toNat < 50257)
include hL

/-- The gather along the vocabulary axis reads the log-probability at the label. -/
theorem gather_eq (a : Fin 2) (p : Fin 2048) (u : Fin 1) :
    val_main_call1_v13 (F := Ideal) X E B Lb (ix3 a p u)
      = val_main_v4 (F := Ideal) X E B (ix3 a p (Cert.Spec.labIdx Lb a p)) := by
  unfold val_main_call1_v13 Host.gather
  refine congrArg (val_main_v4 (F := Ideal) X E B) (funext fun ax => Fin.ext ?_)
  show gather_S2x2048x50257_S2x2048x1x1_S2x2048x1_n_2_01_01_2_3_111.start (ix3 a p u) (val_main_call1_v5 (F := Ideal) Lb) ax + gather_S2x2048x50257_S2x2048x1x1_S2x2048x1_n_2_01_01_2_3_111.batchCoord (ix3 a p u) ax
      + gather_S2x2048x50257_S2x2048x1x1_S2x2048x1_n_2_01_01_2_3_111.offCoord (ix3 a p u) ax = _
  match ax with
  | ⟨0, _⟩ =>
    have hs : gather_S2x2048x50257_S2x2048x1x1_S2x2048x1_n_2_01_01_2_3_111.start (ix3 a p u) (val_main_call1_v5 (F := Ideal) Lb) (0 : Fin 3) = 0 := by
      unfold GatherDims.start; rw [dif_neg (by decide)]
    have ho : gather_S2x2048x50257_S2x2048x1x1_S2x2048x1_n_2_01_01_2_3_111.offCoord (ix3 a p u) (0 : Fin 3) = 0 := GatherDims.offCoord_eq_zero _ _ _ (by decide)
    show gather_S2x2048x50257_S2x2048x1x1_S2x2048x1_n_2_01_01_2_3_111.start (ix3 a p u) (val_main_call1_v5 (F := Ideal) Lb) (0 : Fin 3) + gather_S2x2048x50257_S2x2048x1x1_S2x2048x1_n_2_01_01_2_3_111.batchCoord (ix3 a p u) (0 : Fin 3)
      + gather_S2x2048x50257_S2x2048x1x1_S2x2048x1_n_2_01_01_2_3_111.offCoord (ix3 a p u) (0 : Fin 3) = a.val
    rw [hs, ho, g_batch0, Nat.zero_add, Nat.add_zero]
  | ⟨1, _⟩ =>
    have hs : gather_S2x2048x50257_S2x2048x1x1_S2x2048x1_n_2_01_01_2_3_111.start (ix3 a p u) (val_main_call1_v5 (F := Ideal) Lb) (1 : Fin 3) = 0 := by
      unfold GatherDims.start; rw [dif_neg (by decide)]
    have ho : gather_S2x2048x50257_S2x2048x1x1_S2x2048x1_n_2_01_01_2_3_111.offCoord (ix3 a p u) (1 : Fin 3) = 0 := GatherDims.offCoord_eq_zero _ _ _ (by decide)
    show gather_S2x2048x50257_S2x2048x1x1_S2x2048x1_n_2_01_01_2_3_111.start (ix3 a p u) (val_main_call1_v5 (F := Ideal) Lb) (1 : Fin 3) + gather_S2x2048x50257_S2x2048x1x1_S2x2048x1_n_2_01_01_2_3_111.batchCoord (ix3 a p u) (1 : Fin 3)
      + gather_S2x2048x50257_S2x2048x1x1_S2x2048x1_n_2_01_01_2_3_111.offCoord (ix3 a p u) (1 : Fin 3) = p.val
    rw [hs, ho, g_batch1, Nat.zero_add, Nat.add_zero]
  | ⟨2, _⟩ =>
    have hb : gather_S2x2048x50257_S2x2048x1x1_S2x2048x1_n_2_01_01_2_3_111.batchCoord (ix3 a p u) (2 : Fin 3) = 0 := GatherDims.batchCoord_eq_zero _ _ _ (by decide)
    have ho : gather_S2x2048x50257_S2x2048x1x1_S2x2048x1_n_2_01_01_2_3_111.offCoord (ix3 a p u) (2 : Fin 3) = 0 := GatherDims.offCoord_eq_zero _ _ _ (by decide)
    have hi : idx_main_v5 (idx_main_call1_v5 (ix4 a p u (0 : Fin 1))) = ix2 a p := by
      have ha := a.isLt
      have hp := p.isLt
      have hu := u.isLt
      funext d
      refine Fin.ext ?_
      match d with
      | ⟨0, _⟩ => show ((((a.val * 2048 + p.val) * 1 + u.val) * 1 + 0) / 2048 = a.val); omega
      | ⟨1, _⟩ => show ((((a.val * 2048 + p.val) * 1 + u.val) * 1 + 0) / 1 % 2048 = p.val); omega
    have hs : gather_S2x2048x50257_S2x2048x1x1_S2x2048x1_n_2_01_01_2_3_111.start (ix3 a p u) (val_main_call1_v5 (F := Ideal) Lb) (2 : Fin 3)
        = min (Lb (ix2 a p)).toInt.toNat 50256 := by
      unfold GatherDims.start
      rw [dif_pos (by decide), g_siIdx, startidx_eq Lb hL, hi]
      rfl
    have hl := hL (ix2 a p)
    show gather_S2x2048x50257_S2x2048x1x1_S2x2048x1_n_2_01_01_2_3_111.start (ix3 a p u) (val_main_call1_v5 (F := Ideal) Lb) (2 : Fin 3) + gather_S2x2048x50257_S2x2048x1x1_S2x2048x1_n_2_01_01_2_3_111.batchCoord (ix3 a p u) (2 : Fin 3)
      + gather_S2x2048x50257_S2x2048x1x1_S2x2048x1_n_2_01_01_2_3_111.offCoord (ix3 a p u) (2 : Fin 3) = (Lb (ix2 a p)).toNat % 50257
    rw [hs, hb, ho, toInt_label Lb hL, Int.toNat_natCast]
    omega

end Gather

section Final

variable (X : Cert.Spec.SX.Idx → EReal) (E : Cert.Spec.SE.Idx → EReal) (B : Cert.Spec.SB.Idx → EReal)
  (Lb : Cert.Spec.SL.Idx → BitVec 32) (hL : ∀ i, (Lb i).toNat < 50257)
include hL

/-- With the mask set, the selected value at a token is the log-probability of its label. -/
theorem picked_eq (j : S2x2048x1.Idx) :
    val_main_v6 (F := Ideal) X E B Lb j
      = Cert.Spec.logp X E B (j 0) (j 1) (Cert.Spec.labIdx Lb (j 0) (j 1)) := by
  obtain ⟨a, p, u, rfl⟩ : ∃ (a : Fin 2) (p : Fin 2048) (u : Fin 1), j = ix3 a p u := ⟨j 0, j 1, j 2, eq_ix3 j⟩
  show val_main_v6 (F := Ideal) X E B Lb (ix3 a p u) = Cert.Spec.logp X E B a p (Cert.Spec.labIdx Lb a p)
  rw [val_main_v6_apply, mask_eq Lb hL, select_one, gather_eq X E B Lb hL, logp_eq]

end Final

/-- The reference's last stage, as a function of the four argument arrays, is the constant `Spec.refResult`. -/
theorem result_eq (X : Cert.Spec.SX.Idx → EReal) (E : Cert.Spec.SE.Idx → EReal) (B : Cert.Spec.SB.Idx → EReal)
    (Lb : Cert.Spec.SL.Idx → BitVec 32) (hL : ∀ i, (Lb i).toNat < 50257) :
    val_main_v9 (F := Ideal) X E B Lb = fun _ => Cert.Spec.refResult X E B Lb := by
  funext i
  rw [val_main_v9_apply, val_main_v8_apply, val_main_v7_apply, val_main_cst_apply, val_main_cst_0_apply,
    Ideal.hostNegf_def, Ideal.negf_def, Ideal.hostDivf_def, Ideal.ofBits_def, Ideal.ofBits_def, Ideal.ofBits_zero_f32,
    ofBits_4096, Finset.sum_congr rfl (fun j _ => picked_eq X E B Lb hL j)]
  rfl

end Cert.ReferenceIdeal.RefResult

end
-- ==== Proof.PreDecode.lean ====
/-
  What the precondition says, entry by entry: every hidden state, embedding and bias is a real number (neither
  infinity), and every label is one of the 50257 words.
-/
import proofs.«416658_j55568286876202_3_alg».proof.Pre_finite_inputs
import proofs.«416658_j55568286876202_3_alg».proof.Proof.Spec
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx

variable [Cert.Pre_finite_inputs.Facts]

/-- The rank-0 shape has exactly one index. -/
instance scalarIdx_subsingleton : Subsingleton Cert.Pre_finite_inputs.S_.Idx := ⟨fun a b => funext fun d => d.elim0⟩

/-- The f32 pattern `0x7F800000` (sign 0, exponent all ones, fraction 0) denotes `+∞`. -/
theorem ofBits_inf : Ideal.ofBits .f32 0x7F800000#32 = (⊤ : EReal) := by
  simp [Ideal.ofBits, Ideal.ieee]

/-- `|x| < +∞` holds of an extended real exactly when it is a real number: `|x| = max x (-x)` is `⊤` at both
    infinities. -/
theorem real_of_abs_lt (x : EReal)
    (hx : Ideal.cmp .olt (max x (-x)) (Ideal.ofBits .f32 0x7F800000#32) = 1#1) : x ≠ ⊤ ∧ x ≠ ⊥ := by
  rw [ofBits_inf] at hx
  induction x using EReal.rec with
  | bot => exact absurd hx (by simp [Ideal.cmp])
  | top => exact absurd hx (by simp [Ideal.cmp])
  | coe r => exact ⟨EReal.coe_ne_top r, EReal.coe_ne_bot r⟩

/-- A 32-bit word that is signed-nonnegative and signed-below 50257 is, read unsigned, below 50257: a word whose
    unsigned value is 2³¹ or more reads negative when signed. -/
theorem word_range (a : BitVec 32)
    (ha : IntOp.andi (IntOp.cmpi .sge a 0#32) (IntOp.cmpi .slt a 50257#32) = 1#1) : a.toNat < 50257 := by
  obtain ⟨h0, h1⟩ := IntOp.andi_eq_one.1 ha
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  rw [BitVec.toInt_eq_toNat_cond] at h0 h1
  split at h0 <;> omega

/-- The printed predicate, all ones, gives: the three float arrays hold real numbers only, and every label, read as an
    unsigned 32-bit word, is below 50257 (the predicate's two signed comparisons `0 ≤ label` and `label < 50257`). -/
theorem decode (X : Cert.Spec.SX.Idx → EReal) (E : Cert.Spec.SE.Idx → EReal) (B : Cert.Spec.SB.Idx → EReal)
    (Lb : Cert.Spec.SL.Idx → BitVec 32)
    (h : Cert.Pre_finite_inputs.fn (F := Ideal) X E B Lb = fun _ => 1#1) :
    (∀ i, X i ≠ ⊤ ∧ X i ≠ ⊥) ∧ (∀ i, E i ≠ ⊤ ∧ E i ≠ ⊥) ∧ (∀ i, B i ≠ ⊤ ∧ B i ≠ ⊥) ∧ (∀ i, (Lb i).toNat < 50257) := by
  have h0 := congrFun h ValueIdx.ix0
  dsimp only [Cert.Pre_finite_inputs.fn, Cert.Pre_finite_inputs.fn_part1] at h0
  obtain ⟨hXEB, hL⟩ := IntOp.andi_eq_one.1 h0
  obtain ⟨hXE, hB⟩ := IntOp.andi_eq_one.1 hXEB
  obtain ⟨hX, hE⟩ := IntOp.andi_eq_one.1 hXE
  refine ⟨fun i => ?_, fun i => ?_, fun i => ?_, fun i => ?_⟩
  · exact real_of_abs_lt (X i) (Host.reduce_andi_all _ _ _ _ _ hX i)
  · exact real_of_abs_lt (E i) (Host.reduce_andi_all _ _ _ _ _ hE i)
  · exact real_of_abs_lt (B i) (Host.reduce_andi_all _ _ _ _ _ hB i)
  · exact word_range (Lb i) (Host.reduce_andi_all _ _ _ _ _ hL i)

end Cert.PreDecode

end
-- ==== Proof.lean ====
/-
  A fused language-model head with softmax cross-entropy against its plain jnp reference, over the extended reals.

  The kernel never forms the [4096, 50257] logits: it walks the vocabulary in 50 tiles of 1024 columns and keeps, per
  token, a running maximum, a running sum of exponentials rescaled to that maximum, and the label's logit; columns past
  the vocabulary are filled with a large negative number the source calls a finite -∞, read here as -∞ (the named
  constant "neg_big"), so they leave the maximum alone and add exp (-∞) = 0 to the sum. After the last tile a token's
  loss is m + log l - t, and the host averages the 4096 losses. The reference computes log_softmax of the whole logits,
  picks the label's entry, averages and negates. Both are log (∑ c, exp (z c)) - z label per token
  (Proof/Spec.lean, Proof/SpecLaw.lean): arithmetic of real numbers, which needs the inputs finite and every label a
  word of the vocabulary — the precondition (Proof/PreDecode.lean).

  The kernel's value is read off its frame run: what each control case leaves in the three carried buffers
  (Proof/KPieces.lean), the body's arithmetic entry by entry (Proof/KPayloads.lean), the four input blocks as parts of the
  argument arrays (Proof/KBlocks.lean), the induction over the grid points (Proof/KInvariant.lean), the two write-backs
  and the host's mean (Proof/KFinal.lean). The reference's run is read stretch by stretch (Proof/RefStage.lean) and its
  stages index by index (Proof/RefResult.lean).
-/
import proofs.«416658_j55568286876202_3_alg».proof.Defs
import proofs.«416658_j55568286876202_3_alg».proof.Proof.Gen.Kernel
import proofs.«416658_j55568286876202_3_alg».proof.Proof.Gen.Kernel.Frame
import proofs.«416658_j55568286876202_3_alg».proof.Proof.Gen.KernelIdeal
import proofs.«416658_j55568286876202_3_alg».proof.Proof.Gen.KernelIdeal.Frame
import proofs.«416658_j55568286876202_3_alg».proof.Proof.Gen.ReferenceIdeal
import proofs.«416658_j55568286876202_3_alg».proof.Proof.Gen.Pre_finite_inputs
import proofs.«416658_j55568286876202_3_alg».proof.Proof.KFinal
import proofs.«416658_j55568286876202_3_alg».proof.Proof.RefStage
import proofs.«416658_j55568286876202_3_alg».proof.Proof.RefResult
import proofs.«416658_j55568286876202_3_alg».proof.Proof.PreDecode
import proofs.«416658_j55568286876202_3_alg».proof.Proof.SpecLaw
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefStage.run (F := Ideal) m ρ)

/-- The ledger's one entry: the fill of the columns past the vocabulary is named "neg_big", which the table reads -∞. -/
theorem preserves : Cert.preserves_Kernel_KernelIdeal :=
  IdealRules.named_const.statement Cert.KernelIdeal.κ "neg_big" .f32 0xFF333332#32 ⊥ rfl

/-- From memories agreeing on the four arguments both programs end with the same scalar: the kernel's mean of the tiled
    token losses is the reference's negated mean of the labels' log-probabilities. -/
theorem algebraic : Cert.algebraic_KernelIdeal_ReferenceIdeal := by
  intro m ρ m' ρ' hpre hagree
  refine ⟨fun c => fun _ => Cert.Spec.kernelResult (Cert.KernelIdeal.Blocks.argX m c) (Cert.KernelIdeal.Blocks.argE m c)
    (Cert.KernelIdeal.Blocks.argB m c) (Cert.KernelIdeal.Blocks.argL m c), Cert.KernelIdeal.Final.run m ρ, ?_⟩
  refine (θ_run Cert.ReferenceIdeal.defs _ _).mono (fun _ h c => ⟨(h c).1.trans ?_, (h c).2⟩)
    (Cert.ReferenceIdeal.RefStage.run (F := Ideal) m' ρ')
  obtain ⟨hX, hE, hB, hL⟩ := Cert.PreDecode.decode _ _ _ _ (hpre c)
  rw [(hagree c).1, (hagree c).2.1, (hagree c).2.2.1, (hagree c).2.2.2]
  rw [Cert.ReferenceIdeal.RefResult.result_eq _ _ _ _ hL]
  funext _
  exact (Cert.Spec.kernel_eq_ref _ _ _ _ hX hE hB hL).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
